-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v7) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S_ : Shape := ⟨0, ![]⟩

class Facts : Prop where
  bcast_S_S10000x128 : S_.BroadcastsInDim S10000x128 (![] : Fin 0 → Fin S10000x128.rank)
  reducesTo_S10000x128_S_d0_1 : S10000x128.ReducesTo [0, 1] S_
  h_S_ : 0 < S_.numel
  bcast_S_S10000x10000 : S_.BroadcastsInDim S10000x10000 (![] : Fin 0 → Fin S10000x10000.rank)
  reducesTo_S10000x10000_S_d0_1 : S10000x10000.ReducesTo [0, 1] S_
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_

variable [Facts]

def fn_part1 {F : FTy → Type} [FloatOps F] (main_v13 : IVec S_ 1) (main_v16 : IVec S128 1) : IVec S_ 1 :=
  let main_c_5 : IVec S_ 1 := constantI S_ 1 1#1
  let main_v17 : IVec S_ 1 := (fun x v => Host.reduce IntOp.andi x v reducesTo_S128_S_d0 h_S_) main_v16 main_c_5
  let main_v18 : IVec S_ 1 := andi main_v13 main_v17
  main_v18

def fn {F : FTy → Type} [FloatOps F] (main_arg0 : FVec F S10000x128 .f32) (main_arg1 : FVec F S10000x10000 .f32) (main_arg2 : FVec F S128x128 .f32) (main_arg3 : FVec F S128 .f32) : IVec S_ 1 :=
  let main_v0 : FVec F S10000x128 .f32 := Host.absf main_arg0
  let main_cst : FVec F S_ .f32 := constant S_ .f32 0x7F800000#32
  let main_v1 : FVec F S10000x128 .f32 := broadcastInDim S10000x128 ![] bcast_S_S10000x128 main_cst
  let main_v2 : IVec S10000x128 1 := cmpf .olt main_v0 main_v1
  let main_c : IVec S_ 1 := constantI S_ 1 1#1
  let main_v3 : IVec S_ 1 := (fun x v => Host.reduce IntOp.andi x v reducesTo_S10000x128_S_d0_1 h_S_) main_v2 main_c
  let main_v4 : FVec F S10000x10000 .f32 := Host.absf main_arg1
  let main_cst_0 : FVec F S_ .f32 := constant S_ .f32 0x7F800000#32
  let main_v5 : FVec F S10000x10000 .f32 := broadcastInDim S10000x10000 ![] bcast_S_S10000x10000 main_cst_0
  let main_v6 : IVec S10000x10000 1 := cmpf .olt main_v4 main_v5
  let main_c_1 : IVec S_ 1 := constantI S_ 1 1#1
  let main_v7 : IVec S_ 1 := (fun x v => Host.reduce IntOp.andi x v reducesTo_S10000x10000_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128 .f32 := Host.absf main_arg3
  let main_cst_4 : FVec F S_ .f32 := constant S_ .f32 0x7F800000#32
  let main_v15 : FVec F S128 .f32 := broadcastInDim S128 ![] bcast_S_S128 main_cst_4
  let main_v16 : IVec S128 1 := cmpf .olt main_v14 main_v15
  fn_part1 (F := F) main_v13 main_v16
-- ==== Kernel.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S200x10000 : Shape := ⟨2, ![200, 10000]⟩
abbrev S400x128 : Shape := ⟨2, ![400, 128]⟩
abbrev S200x128 : Shape := ⟨2, ![200, 128]⟩
abbrev S200 : Shape := ⟨1, ![200]⟩
abbrev S200x1 : Shape := ⟨2, ![200, 1]⟩

abbrev nBuf : Space → Nat
  | .hbm => 6
  | .vmem => 11
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S1x128, .f32⟩
  | .hbm, ⟨5, _⟩ => ⟨S10000x128, .f32⟩
  | .local _ .vmem, ⟨0, _⟩ => ⟨S200x10000, .f32⟩
  | .local _ .vmem, ⟨1, _⟩ => ⟨S200x10000, .f32⟩
  | .local _ .vmem, ⟨2, _⟩ => ⟨S200x10000, .f32⟩
  | .local _ .vmem, ⟨3, _⟩ => ⟨S200x10000, .f32⟩
  | .local _ .vmem, ⟨4, _⟩ => ⟨S10000x128, .f32⟩
  | .local _ .vmem, ⟨5, _⟩ => ⟨S128x128, .f32⟩
  | .local _ .vmem, ⟨6, _⟩ => ⟨S1x128, .f32⟩
  | .local _ .vmem, ⟨7, _⟩ => ⟨S400x128, .f32⟩
  | .local _ .vmem, ⟨8, _⟩ => ⟨S400x128, .f32⟩
  | .local _ .vmem, ⟨9, _⟩ => ⟨S10000x128, .bf16⟩
  | .local _ .vmem, ⟨10, _⟩ => ⟨S10000x128, .bf16⟩
  | _, _ => ⟨S10000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_scratch0 : Ref sig .tc := ⟨.vmem, 9, rfl⟩
abbrev cc0_scratch1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem5_1 : DmaSem sig := 8

abbrev nD : Nat := 1
abbrev τ : Topo := Topo.v7x

variable {F : FTy → Type} [FloatOps F]

abbrev grid0 : Pipeline.Grid := ⟨2, ![2, 25], ![false, false]⟩

def k0_cond2 (i : grid0.Coords) : BitVec 1 :=
  let arg0 : BitVec 32 := BitVec.ofNat 32 (i 0).val
  let c0_i32_5 : BitVec 32 := 0#32
  let v9 : BitVec 1 := Scalar.cmpi .eq arg0 c0_i32_5
  let v10 : BitVec 32 := Scalar.extui v9
  let c0_i32_6 : BitVec 32 := 0#32
  let v11 : BitVec 1 := Scalar.cmpi .ne v10 c0_i32_6
  v11

def k0_off1 (i : grid0.Coords) : Fin 2 → Nat :=
  let arg1 : BitVec 32 := BitVec.ofNat 32 (i 1).val
  let c2_i32 : BitVec 32 := 2#32
  let v15 : BitVec 32 := Scalar.muli arg1 c2_i32
  let c200_i32 : BitVec 32 := 200#32
  let v16 : BitVec 32 := Scalar.muli v15 c200_i32
  let v20 : Index := Scalar.indexCast v16
  let c0_10 : Index := 0#32
  ![v20.toNat, 0]
def k0_off2 (i : grid0.Coords) : Fin 2 → Nat :=
  let arg1 : BitVec 32 := BitVec.ofNat 32 (i 1).val
  let c2_i32 : BitVec 32 := 2#32
  let v15 : BitVec 32 := Scalar.muli arg1 c2_i32
  let c200_i32 : BitVec 32 := 200#32
  let v16 : BitVec 32 := Scalar.muli v15 c200_i32
  let c200_i32_14 : BitVec 32 := 200#32
  let v27 : BitVec 32 := Scalar.addi v16 c200_i32_14
  let v28 : Index := Scalar.indexCast v27
  let c0_15 : Index := 0#32
  ![v28.toNat, 0]
def k0_cond3 (i : grid0.Coords) : BitVec 1 :=
  let arg0 : BitVec 32 := BitVec.ofNat 32 (i 0).val
  let c1_i32 : BitVec 32 := 1#32
  let v12 : BitVec 1 := Scalar.cmpi .eq arg0 c1_i32
  let v13 : BitVec 32 := Scalar.extui v12
  let c0_i32_7 : BitVec 32 := 0#32
  let v14 : BitVec 1 := Scalar.cmpi .ne v13 c0_i32_7
  v14

def cc0_transform_0 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c0_i32 : BitVec 32 := 0#32
  let c0_i32_0 : BitVec 32 := 0#32
  ![v0.toNat, c0_i32.toNat]

def cc0_transform_1 (i : grid0.Coords) : Fin 2 → Nat :=
  let arg0 : BitVec 32 := BitVec.ofNat 32 (i 0).val
  let arg1 : BitVec 32 := BitVec.ofNat 32 (i 1).val
  let c2_i32 : BitVec 32 := 2#32
  let v0 : BitVec 32 := Scalar.muli c2_i32 arg1
  let c1_i32 : BitVec 32 := 1#32
  let v1 : BitVec 32 := Scalar.addi v0 c1_i32
  let c0_i32 : BitVec 32 := 0#32
  let c0_i32_0 : BitVec 32 := 0#32
  ![v1.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let v0 : BitVec 32 := Scalar.muli arg1 arg0
  let c0_i32 : BitVec 32 := 0#32
  let c0_i32_0 : BitVec 32 := 0#32
  ![v0.toNat, c0_i32.toNat]

abbrev stage0_0 : Fin 2 → Memref sig .tc .vmem S200x10000 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S200x10000 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 1 → Memref sig .tc .vmem S10000x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S400x128 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

class Facts₀ : Prop where
  shapeCasts_S128_S1x128 : S128.ShapeCasts S1x128
  inb_S200x10000_S200x10000_0_0 : ∀ a, (![0, 0] : Fin 2 → Nat) a + S200x10000.size a ≤ S200x10000.size a
  h_S200x10000 : 0 < S200x10000.numel
  bitsLt_bf16_f32 : FTy.bits .bf16 < FTy.bits .f32
  inb_S10000x128_S10000x128_0_0 : ∀ a, (![0, 0] : Fin 2 → Nat) a + S10000x128.size a ≤ S10000x128.size a
  h_S10000x128 : 0 < S10000x128.numel
  shapeCasts_S10000x128_S10000x128 : S10000x128.ShapeCasts S10000x128
  packedbf16_S10000x128_S10000x128_0_0 : (Rect.unit (s := S10000x128) ![0, 0] S10000x128.size inb_S10000x128_S10000x128_0_0).PackedRows (EltTy.packing .bf16)
  h_S200x128 : 0 < S200x128.numel
  shapeCasts_S200x128_S200x128 : S200x128.ShapeCasts S200x128
  inb_S128x128_S128x128_0_0 : ∀ a, (![0, 0] : Fin 2 → Nat) a + S128x128.size a ≤ S128x128.size a
  h_S128x128 : 0 < S128x128.numel
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S200x128 : S1x128.Broadcasts S200x128
  reduces_S200x128_S200 : S200x128.Reduces [1] S200
  shapeCasts_S200_S200x1 : S200.ShapeCasts S200x1
  broadcasts_S200x1_S200x128 : S200x1.Broadcasts S200x128
  inb_S400x128_S200x128_0_0 : ∀ a, (![0, 0] : Fin 2 → Nat) a + S200x128.size a ≤ S400x128.size a
  inb_S400x128_S200x128_200_0 : ∀ a, (![200, 0] : Fin 2 → Nat) a + S200x128.size a ≤ S400x128.size a
  dot_S200x10000_S10000x128_S200x128_1_0_0_1_n_n_wf : DotDims.WF S200x10000 S10000x128 S200x128 [1] [0] [0] [1] [] []
  dot_S200x128_S128x128_S200x128_1_1_0_0_n_n_wf : DotDims.WF S200x128 S128x128 S200x128 [1] [1] [0] [0] [] []
  hrank0 : 0 < grid0.rank
  k0_off1_inb : ∀ i : grid0.Coords, ∀ (k0_h2 : k0_cond2 i = 1#1), ∀ a, (k0_off1 i) a + S200x128.size a ≤ S10000x128.size a
  k0_off1_packedbf16 : ∀ i : grid0.Coords, ∀ (k0_h2 : k0_cond2 i = 1#1), (Rect.unit (s := S10000x128) (k0_off1 i) S200x128.size (k0_off1_inb i k0_h2)).PackedRows (EltTy.packing .bf16)
  k0_off2_inb : ∀ i : grid0.Coords, ∀ (k0_h2 : k0_cond2 i = 1#1), ∀ a, (k0_off2 i) a + S200x128.size a ≤ S10000x128.size a
  k0_off2_packedbf16 : ∀ i : grid0.Coords, ∀ (k0_h2 : k0_cond2 i = 1#1), (Rect.unit (s := S10000x128) (k0_off2 i) S200x128.size (k0_off2_inb i k0_h2)).PackedRows (EltTy.packing .bf16)
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S200x10000.size a ≤ S10000x10000.size a
  hwx0_0 : ∀ i : grid0.Coords, EltTy.bits .f32 = 32 ∨ (Rect.block (s := S10000x10000) S200x10000.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S200x10000.size a ≤ S10000x10000.size a
  hwx0_1 : ∀ i : grid0.Coords, EltTy.bits .f32 = 32 ∨ (Rect.block (s := S10000x10000) S200x10000.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S10000x128.size a ≤ S10000x128.size a
  hwx0_2 : ∀ i : grid0.Coords, EltTy.bits .f32 = 32 ∨ (Rect.block (s := S10000x128) S10000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1x128.size a ≤ S1x128.size a
  hwx0_4 : ∀ i : grid0.Coords, EltTy.bits .f32 = 32 ∨ (Rect.block (s := S1x128) S1x128.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S400x128.size a ≤ S10000x128.size a
  hwx0_5 : ∀ i : grid0.Coords, EltTy.bits .f32 = 32 ∨ (Rect.block (s := S10000x128) S400x128.size (cc0_transform_5 i) (hinb0_5 i)).WholeWords (EltTy.packing .f32)

variable [Facts₀]

def dot_S200x10000_S10000x128_S200x128_1_0_0_1_n_n : DotDims S200x10000 S10000x128 S200x128 where
  lhsContracting := [1]
  rhsContracting := [0]
  lhsNonContracting := [0]
  rhsNonContracting := [1]
  lhsBatch := []
  rhsBatch := []
  wf := dot_S200x10000_S10000x128_S200x128_1_0_0_1_n_n_wf
def dot_S200x128_S128x128_S200x128_1_1_0_0_n_n : DotDims S200x128 S128x128 S200x128 where
  lhsContracting := [1]
  rhsContracting := [1]
  lhsNonContracting := [0]
  rhsNonContracting := [0]
  lhsBatch := []
  rhsBatch := []
  wf := dot_S200x128_S128x128_S200x128_1_1_0_0_n_n_wf

abbrev win0_0 : Pipeline.Window sig grid0 :=
  Pipeline.Window.ofSpec (Memref.whole main_arg1) S200x10000.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S200x10000.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg0) S10000x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg2) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v0) S1x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v1) S400x128.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S10000x128 : Shape := ⟨2, ![10000, 128]⟩
abbrev S10000x10000 : Shape := ⟨2, ![10000, 10000]⟩
abbrev S128x128 : Shape := ⟨2, ![128, 128]⟩
abbrev S128 : Shape := ⟨1, ![128]⟩
abbrev S1x128 : Shape := ⟨2, ![1, 128]⟩
abbrev S_ : Shape := ⟨0, ![]⟩
abbrev S10000 : Shape := ⟨1, ![10000]⟩
abbrev S10000x1 : Shape := ⟨2, ![10000, 1]⟩

abbrev nBuf : Space → Nat
  | .hbm => 26
  | .vmem => 0
  | .smem => 0
  | _ => 0

abbrev bufTy : (tb : Table) → Fin (tcTables nBuf tb) → BufTy
  | .hbm, ⟨0, _⟩ => ⟨S10000x128, .f32⟩
  | .hbm, ⟨1, _⟩ => ⟨S10000x10000, .f32⟩
  | .hbm, ⟨2, _⟩ => ⟨S128x128, .f32⟩
  | .hbm, ⟨3, _⟩ => ⟨S128, .f32⟩
  | .hbm, ⟨4, _⟩ => ⟨S10000x128, .f32⟩
  | .hbm, ⟨5, _⟩ => ⟨S10000x128, .f32⟩
  | .hbm, ⟨6, _⟩ => ⟨S128x128, .f32⟩
  | .hbm, ⟨7, _⟩ => ⟨S10000x128, .f32⟩
  | .hbm, ⟨8, _⟩ => ⟨S1x128, .f32⟩
  | .hbm, ⟨9, _⟩ => ⟨S10000x128, .f32⟩
  | .hbm, ⟨10, _⟩ => ⟨S10000x128, .f32⟩
  | .hbm, ⟨11, _⟩ => ⟨S_, .f32⟩
  | .hbm, ⟨12, _⟩ => ⟨S10000, .f32⟩
  | .hbm, ⟨13, _⟩ => ⟨S_, .f32⟩
  | .hbm, ⟨14, _⟩ => ⟨S10000, .f32⟩
  | .hbm, ⟨15, _⟩ => ⟨S10000, .f32⟩
  | .hbm, ⟨16, _⟩ => ⟨S10000x1, .f32⟩
  | .hbm, ⟨17, _⟩ => ⟨S10000x128, .f32⟩
  | .hbm, ⟨18, _⟩ => ⟨S10000x128, .f32⟩
  | .hbm, ⟨19, _⟩ => ⟨S10000x128, .f32⟩
  | .hbm, ⟨20, _⟩ => ⟨S_, .f32⟩
  | .hbm, ⟨21, _⟩ => ⟨S10000, .f32⟩
  | .hbm, ⟨22, _⟩ => ⟨S10000x1, .f32⟩
  | .hbm, ⟨23, _⟩ => ⟨S10000x1, .f32⟩
  | .hbm, ⟨24, _⟩ => ⟨S10000x128, .f32⟩
  | .hbm, ⟨25, _⟩ => ⟨S10000x128, .f32⟩
  | _, _ => ⟨S10000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_call0_cst : Ref sig .tc := ⟨.hbm, 11, rfl⟩
abbrev main_call0_v0 : Ref sig .tc := ⟨.hbm, 12, rfl⟩
abbrev main_call0_cst_0 : Ref sig .tc := ⟨.hbm, 13, rfl⟩
abbrev main_call0_v1 : Ref sig .tc := ⟨.hbm, 14, rfl⟩
abbrev main_call0_v2 : Ref sig .tc := ⟨.hbm, 15, rfl⟩
abbrev main_call0_v3 : Ref sig .tc := ⟨.hbm, 16, rfl⟩
abbrev main_call0_v4 : Ref sig .tc := ⟨.hbm, 17, rfl⟩
abbrev main_call0_v5 : Ref sig .tc := ⟨.hbm, 18, rfl⟩
abbrev main_call0_v6 : Ref sig .tc := ⟨.hbm, 19, rfl⟩
abbrev main_call0_cst_1 : Ref sig .tc := ⟨.hbm, 20, rfl⟩
abbrev main_call0_v7 : Ref sig .tc := ⟨.hbm, 21, rfl⟩
abbrev main_call0_v8 : Ref sig .tc := ⟨.hbm, 22, rfl⟩
abbrev main_call0_v9 : Ref sig .tc := ⟨.hbm, 23, rfl⟩
abbrev main_call0_v10 : Ref sig .tc := ⟨.hbm, 24, rfl⟩
abbrev main_v7 : Ref sig .tc := ⟨.hbm, 25, rfl⟩

abbrev nD : Nat := 1
abbrev τ : Topo := Topo.v7x

variable {F : FTy → Type} [FloatOps F]

class Facts₀ : Prop where
  transposes_S128x128_S128x128_1_0 : S128x128.Transposes [1, 0] S128x128
  bcast_S128_S1x128_1 : S128.BroadcastsInDim S1x128 (![1] : Fin 1 → Fin S1x128.rank)
  bcast_S1x128_S10000x128_0_1 : S1x128.BroadcastsInDim S10000x128 (![0, 1] : Fin 2 → Fin S10000x128.rank)
  reducesTo_S10000x128_S10000_d1 : S10000x128.ReducesTo [1] S10000
  h_S_ : 0 < S_.numel
  bcast_S_S10000 : S_.BroadcastsInDim S10000 (![] : Fin 0 → Fin S10000.rank)
  bcast_S10000_S10000x1_0 : S10000.BroadcastsInDim S10000x1 (![0] : Fin 1 → Fin S10000x1.rank)
  bcast_S10000x1_S10000x128_0_1 : S10000x1.BroadcastsInDim S10000x128 (![0, 1] : Fin 2 → Fin S10000x128.rank)
  dot_S10000x10000_S10000x128_S10000x128_1_0_0_1_n_n_wf : DotDims.WF S10000x10000 S10000x128 S10000x128 [1] [0] [0] [1] [] []
  dot_S10000x128_S128x128_S10000x128_1_0_0_1_n_n_wf : DotDims.WF S10000x128 S128x128 S10000x128 [1] [0] [0] [1] [] []

variable [Facts₀]

def dot_S10000x10000_S10000x128_S10000x128_1_0_0_1_n_n : DotDims S10000x10000 S10000x128 S10000x128 where
  lhsContracting := [1]
  rhsContracting := [0]
  lhsNonContracting := [0]
  rhsNonContracting := [1]
  lhsBatch := []
  rhsBatch := []
  wf := dot_S10000x10000_S10000x128_S10000x128_1_0_0_1_n_n_wf
def dot_S10000x128_S128x128_S10000x128_1_0_0_1_n_n : DotDims S10000x128 S128x128 S10000x128 where
  lhsContracting := [1]
  rhsContracting := [0]
  lhsNonContracting := [0]
  rhsNonContracting := [1]
  lhsBatch := []
  rhsBatch := []
  wf := dot_S10000x128_S128x128_S10000x128_1_0_0_1_n_n_wf

class Facts : Prop extends Facts₀ where

variable [Facts]
-- ==== Proof.KI_Setup.lean ====
/-
  The two-hop classifier's one kernel region: what every later module is stated over.

  @main lays the bias out as a row and enters the region. The region runs 50 grid points: at points 0..24 (phase 0)
  it fills a scratch with `A · x`, 400 rows a point; at points 25..49 (phase 1) it computes 400 rows of the result a
  point. Stated here: the arrays as the region finds them, each window's block at a point, at which points each branch
  of the body is taken and the output window is idle or written back, and the region's scratch as owned memory.
-/
import proofs.«148998_g4148938408473_cont_8to1_b_702_11_alg».proof.Proof.Gen.KernelIdeal.Launch
import proofs.«148998_g4148938408473_cont_8to1_b_702_11_alg».proof.Proof.Gen.KernelIdeal.Skeleton
import proofs.«148998_g4148938408473_cont_8to1_b_702_11_alg».proof.Proof.Gen.KernelIdeal.Points
import Idealize.ShloMosaic.Lib.Pipeline.FrameBody
import Idealize.ShloMosaic.Lib.Pipeline.Value
import Idealize.ShloMosaic.Lib.ValueIdx
import Idealize.ShloMosaic.Lib.Ring
import Idealize.ShloMosaic.Lib.Tactic
import Idealize.ShloMosaic.Lib.WritesUnit

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## @main up to the region -/

/-- Core `c`'s TensorCore buffers when the region is entered: after the one host operation before it. -/
abbrev V (c : Dev nD) (b : Ref sig .tc) : Buf (Elt F) ((c : Thread nD τ).loc b) :=
  StableHlo.after hostOps0 (fun b => m (c, b)) b

theorem hostOps0_fresh : (hostOps0 : List (HloOp τ sig (Elt F))).Forall fun op => op.fresh = ∅ := by
  simp only [List.Forall]; repeat' constructor

/-- @main is the line of host operations, then the region. -/
theorem hmain (𝒱₀ : Variants) : Pipeline.HMain (Ix := Unit) (Name := ℕ) (U := UR sig nD τ) (Lvl := ℕ) cfgs 0 defs₀ 𝒱₀ m (main (F := F)) (V m) :=
  Pipeline.hmain_prefix cfgs 0 defs₀ 𝒱₀ m main hostOps0 hostOps0_sub hostOps0_fresh main_chain

/-- The one host operation before the region (the bias laid out as a row) does not write argument 0. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.Forall, StableHlo.reshape_writes, Finset.mem_singleton]
    exact StableHlo.devRef_ne_of_ne (by decide)))
/-- The one host operation before the region (the bias laid out as a row) does not write argument 1. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.Forall, StableHlo.reshape_writes, Finset.mem_singleton]
    exact StableHlo.devRef_ne_of_ne (by decide)))
/-- The one host operation before the region (the bias laid out as a row) does not write argument 2. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.Forall, StableHlo.reshape_writes, Finset.mem_singleton]
    exact StableHlo.devRef_ne_of_ne (by decide)))
/-- The one host operation before the region (the bias laid out as a row) does not write argument 3. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.Forall, StableHlo.reshape_writes, Finset.mem_singleton]
    exact StableHlo.devRef_ne_of_ne (by decide)))

/-! ## The windows' blocks -/

/-- Window `w`'s block at point `t`, read off its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V m c (Pipeline.arrRef spec0 w))

/-- Input window 0's staging buffer holds the window's block at every point, fetched there or not, for any proof data
    whose array is the region's and whose body leaves the block in place. -/
theorem before_0_of {c : Dev nD} (dat : Dat τ (Elt F) Unit ℕ (UR sig nD τ) ℕ cfg0 c) (hA : dat.A 0 = V m c (Pipeline.arrRef spec0 0))
    (hafter : ∀ t, dat.after 0 t = iblk m c 0 t) (t : Fin cfg0.N) (d) : dat.before 0 t d = iblk m c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's staging buffer holds the window's block at every point, fetched there or not, for any proof data
    whose array is the region's and whose body leaves the block in place. -/
theorem before_1_of {c : Dev nD} (dat : Dat τ (Elt F) Unit ℕ (UR sig nD τ) ℕ cfg0 c) (hA : dat.A 1 = V m c (Pipeline.arrRef spec0 1))
    (hafter : ∀ t, dat.after 1 t = iblk m c 1 t) (t : Fin cfg0.N) (d) : dat.before 1 t d = iblk m c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's staging buffer holds the window's block at every point, fetched there or not, for any proof data
    whose array is the region's and whose body leaves the block in place. -/
theorem before_2_of {c : Dev nD} (dat : Dat τ (Elt F) Unit ℕ (UR sig nD τ) ℕ cfg0 c) (hA : dat.A 2 = V m c (Pipeline.arrRef spec0 2))
    (hafter : ∀ t, dat.after 2 t = iblk m c 2 t) (t : Fin cfg0.N) (d) : dat.before 2 t d = iblk m c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's staging buffer holds the window's block at every point, fetched there or not, for any proof data
    whose array is the region's and whose body leaves the block in place. -/
theorem before_3_of {c : Dev nD} (dat : Dat τ (Elt F) Unit ℕ (UR sig nD τ) ℕ cfg0 c) (hA : dat.A 3 = V m c (Pipeline.arrRef spec0 3))
    (hafter : ∀ t, dat.after 3 t = iblk m c 3 t) (t : Fin cfg0.N) (d) : dat.before 3 t d = iblk m c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's staging buffer holds the window's block at every point, fetched there or not, for any proof data
    whose array is the region's and whose body leaves the block in place. -/
theorem before_4_of {c : Dev nD} (dat : Dat τ (Elt F) Unit ℕ (UR sig nD τ) ℕ cfg0 c) (hA : dat.A 4 = V m c (Pipeline.arrRef spec0 4))
    (hafter : ∀ t, dat.after 4 t = iblk m c 4 t) (t : Fin cfg0.N) (d) : dat.before 4 t d = iblk m c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)

/-! ## The body's branches, point by point -/

/-- The first branch (copy the features into scratch) is taken at the first point only. -/
abbrev cond1 (i : grid0.Coords) : Prop :=
  Scalar.cmpi .ne (Scalar.extui (Scalar.andi (Scalar.cmpi .eq (BitVec.ofNat 32 (i 0).val) 0#32) (Scalar.cmpi .eq (BitVec.ofNat 32 (i 1).val) 0#32))) 0#32 = 1#1
theorem hcond1 : ∀ t : Fin cfg0.N, cond1 (grid0.coords t) ↔ t.val = 0 :=
  (by decide +kernel : ∀ t : Fin grid0.N, cond1 (grid0.coords t) ↔ t.val = 0)
/-- The second branch (phase 0: 400 rows of `A · x` into scratch) is taken at points 0..24. -/
theorem hcond2 : ∀ t : Fin cfg0.N, k0_cond2 (grid0.coords t) = 1#1 ↔ t.val < 25 :=
  (by decide +kernel : ∀ t : Fin grid0.N, k0_cond2 (grid0.coords t) = 1#1 ↔ t.val < 25)
/-- The third branch (phase 1: 400 rows of the result) is taken at points 25..49. -/
theorem hcond3 : ∀ t : Fin cfg0.N, k0_cond3 (grid0.coords t) = 1#1 ↔ 25 ≤ t.val :=
  (by decide +kernel : ∀ t : Fin grid0.N, k0_cond3 (grid0.coords t) = 1#1 ↔ 25 ≤ t.val)

/-- In phase 0 the rows stored are `400 · t .. 400 · t + 199` and `400 · t + 200 .. 400 · t + 399`. -/
theorem off1_eq : ∀ t : Fin cfg0.N, t.val < 25 → k0_off1 (grid0.coords t) = ![400 * t.val, 0] :=
  (by decide +kernel : ∀ t : Fin grid0.N, t.val < 25 → k0_off1 (grid0.coords t) = ![400 * t.val, 0])
theorem off2_eq : ∀ t : Fin cfg0.N, t.val < 25 → k0_off2 (grid0.coords t) = ![400 * t.val + 200, 0] :=
  (by decide +kernel : ∀ t : Fin grid0.N, t.val < 25 → k0_off2 (grid0.coords t) = ![400 * t.val + 200, 0])

/-! ## Where the windows are idle, and where the output is written back -/

theorem live_0 : ∀ t : Fin cfg0.N, cfg0.idle 0 (grid0.coords t) = false := by decide +kernel
theorem live_1 : ∀ t : Fin cfg0.N, cfg0.idle 1 (grid0.coords t) = false := by decide +kernel
theorem live_2 : ∀ t : Fin cfg0.N, cfg0.idle 2 (grid0.coords t) = false := by decide +kernel
theorem live_3 : ∀ t : Fin cfg0.N, cfg0.idle 3 (grid0.coords t) = false := by decide +kernel
theorem live_4 : ∀ t : Fin cfg0.N, cfg0.idle 4 (grid0.coords t) = false := by decide +kernel
/-- The output window is idle exactly in phase 0, -/
theorem idle_5 : ∀ t : Fin cfg0.N, t.val < 25 → cfg0.idle 5 (grid0.coords t) = true := by decide +kernel
theorem live_5 : ∀ t : Fin cfg0.N, 25 ≤ t.val → cfg0.idle 5 (grid0.coords t) = false := by decide +kernel
/-- and written back exactly at the points of phase 1: its block index is 0 all through phase 0 and at the first point
    of phase 1, and moves at every later point. -/
theorem noFlush_5 : ∀ t : Fin cfg0.N, t.val < 25 → (cfg0.win 5).flush t = false := by decide +kernel
theorem flush_5 : ∀ t : Fin cfg0.N, 25 ≤ t.val → (cfg0.win 5).flush t = true := by decide +kernel
theorem noFetch_5 : ∀ t : Fin cfg0.N, (cfg0.win 5).fetch t = false := by decide +kernel

/-- The zero offsets, however spelt. -/
theorem hz2 : (![0, 0] : Fin 2 → ℕ) = fun _ => 0 := by funext a; fin_cases a <;> rfl

/-! ## The staging and scratch memrefs -/

abbrev ms_0 (t : Fin cfg0.N) : Memref sig .tc .vmem S200x10000 .f32 := win0_0.stage (cfg0.slots t 0)
abbrev hs_0 (t : Fin cfg0.N) : (ms_0 t).IsWhole := hstage0_0 ((cfg0.slots t 0).cast nbuf0_0)
abbrev ms_1 (t : Fin cfg0.N) : Memref sig .tc .vmem S200x10000 .f32 := win0_1.stage (cfg0.slots t 1)
abbrev hs_1 (t : Fin cfg0.N) : (ms_1 t).IsWhole := hstage0_1 ((cfg0.slots t 1).cast nbuf0_1)
abbrev ms_2 (t : Fin cfg0.N) : Memref sig .tc .vmem S10000x128 .f32 := win0_2.stage (cfg0.slots t 2)
abbrev hs_2 (t : Fin cfg0.N) : (ms_2 t).IsWhole := hstage0_2 ((cfg0.slots t 2).cast nbuf0_2)
abbrev ms_3 (t : Fin cfg0.N) : Memref sig .tc .vmem S128x128 .f32 := win0_3.stage (cfg0.slots t 3)
abbrev hs_3 (t : Fin cfg0.N) : (ms_3 t).IsWhole := hstage0_3 ((cfg0.slots t 3).cast nbuf0_3)
abbrev ms_4 (t : Fin cfg0.N) : Memref sig .tc .vmem S1x128 .f32 := win0_4.stage (cfg0.slots t 4)
abbrev hs_4 (t : Fin cfg0.N) : (ms_4 t).IsWhole := hstage0_4 ((cfg0.slots t 4).cast nbuf0_4)
abbrev ms_5 (t : Fin cfg0.N) : Memref sig .tc .vmem S400x128 .f32 := win0_5.stage (cfg0.slots t 5)
abbrev hs_5 (t : Fin cfg0.N) : (ms_5 t).IsWhole := hstage0_5 ((cfg0.slots t 5).cast nbuf0_5)
/-- The two scratch operands: the features' copy, and the first hop `A · x`. -/
abbrev scX : Memref sig .tc .vmem S10000x128 .bf16 := Memref.whole cc0_scratch0
abbrev scY : Memref sig .tc .vmem S10000x128 .bf16 := Memref.whole cc0_scratch1

/-- What the launch hands the region besides the windows: the two scratch buffers at some contents and the generator
    register at some state. -/
theorem PhiA_eq (c : Dev nD) :
    (Pipeline.ΦA spec0 c : sProp 𝕄)
      = iprop(iprop((∃ d, owns (c : Thread nD τ) scX fullShare d) ∗ (∃ d, owns (c : Thread nD τ) scY fullShare d)) ∗ (∃ r, prngReg c r)) := by
  unfold Pipeline.ΦA; rw [scopedRest0_eq]; simp only [scX, scY, owns_whole]; try rfl

end Cert.KernelIdeal.Hand

end
-- ==== Proof.KI_Data.lean ====
/-
  The proof data of the two-hop classifier's region: what every buffer holds between grid points.

  The first scratch holds, from the second point on, the features' copy `xcopy`. The second scratch is filled 400 rows a
  point through phase 0: before point `t` its rows below `400 · min t 25` hold the first hop `A · xcopy` (`yrows`), the
  other rows whatever they held. In phase 1 the output's staging buffer is left, at point `t`, at 400 rows of the
  result computed from the two blocks of `A` at `t`, the whole first hop, the classifier and the bias (`outBlock`).
-/
import proofs.«148998_g4148938408473_cont_8to1_b_702_11_alg».proof.Proof.KI_Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The grid's first point. -/
abbrev t0 : Fin cfg0.N := ⟨0, by decide⟩

/-- The features' copy the first scratch holds after the first point. -/
def xcopy (c : Dev nD) : Vec F S10000x128 .bf16 := k0_pay3 (iblk m c 2 t0)

/-- The point of phase 0 that stores row `r` of the first hop. -/
abbrev rowPoint (r : ℕ) (h : r < 10000) : Fin cfg0.N := ⟨r / 400, by
  have : r / 400 < 25 := Nat.div_lt_of_lt_mul (by omega)
  exact lt_of_lt_of_le this (by decide)⟩

/-- The 200 rows of the first hop that point `s` of phase 0 computes from the first block of `A` there, -/
def yblockA (c : Dev nD) (s : Fin cfg0.N) : Vec F S200x128 .bf16 := k0_pay4 (iblk m c 0 s) (xcopy m c)
/-- and the 200 it computes from the second. -/
def yblockB (c : Dev nD) (s : Fin cfg0.N) : Vec F S200x128 .bf16 := k0_pay5 (iblk m c 1 s) (xcopy m c)

/-- The first hop as the kernel computes it, row by row: row `r` is stored at point `r / 400`, from the first block
    of `A` there when `r % 400 < 200` and from the second otherwise. -/
def yrows (c : Dev nD) : Vec F S10000x128 .bf16 := fun y =>
  if h : (y 0).val % 400 < 200 then
    yblockA m c (rowPoint (y 0).val (y 0).isLt) (ValueIdx.ix2 ⟨(y 0).val % 400, h⟩ ⟨(y 1).val, (y 1).isLt⟩)
  else
    yblockB m c (rowPoint (y 0).val (y 0).isLt)
      (ValueIdx.ix2 ⟨(y 0).val % 400 - 200, by have := Nat.mod_lt (y 0).val (show 0 < 400 by omega); omega⟩ ⟨(y 1).val, (y 1).isLt⟩)

/-- Before point `t` the second scratch holds the first hop on its rows below `400 · min t 25`. -/
def YInv (c : Dev nD) (t : ℕ) (Y : Vec F S10000x128 .bf16) : Prop :=
  ∀ y : S10000x128.Idx, (y 0).val < 400 * min t 25 → Y y = yrows m c y

/-- The region's invariant before point `t`: the first scratch at the features' copy once the first point has run,
    the second scratch at contents that hold the first hop's rows stored so far. -/
def Phi (c : Dev nD) (t : ℕ) : sProp 𝕄 :=
  iprop((∃ X, ⌜0 < t → X = xcopy m c⌝ ∗ owns (c : Thread nD τ) scX fullShare X)
      ∗ (∃ Y, ⌜YInv m c t Y⌝ ∗ owns (c : Thread nD τ) scY fullShare Y))

/-- The two stores of a point of phase 1 into the output's staging buffer. -/
def outPieces (c : Dev nD) (t : Fin cfg0.N) : List (View.Piece (Elt F) S400x128 .f32) :=
  [⟨Rect.unit (s := S400x128) ![200, 0] S200x128.size Facts₀.inb_S400x128_S200x128_200_0,
      k0_pay7 (k0_pay2 (iblk m c 1 t)) (yrows m c) (iblk m c 3 t) (iblk m c 4 t)⟩,
   ⟨Rect.unit (s := S400x128) ![0, 0] S200x128.size Facts₀.inb_S400x128_S200x128_0_0,
      k0_pay6 (k0_pay1 (iblk m c 0 t)) (yrows m c) (iblk m c 3 t) (iblk m c 4 t)⟩]

/-- They cover the buffer. -/
theorem outPieces_cover (c : Dev nD) (t : Fin cfg0.N) (y : S400x128.Idx) : ∃ pc ∈ outPieces m c t, y ∈ pc.1.set :=
  View.cover_of_tiledL (outPieces m c t) S200x128.size (by sl_kernel_rfl) y

/-- What a point of phase 1 leaves in the output's staging buffer. -/
def outBlock (c : Dev nD) (t : Fin cfg0.N) : Vec F S400x128 .f32 := View.canon (outPieces m c t)

/-- The proof data of the one pipeline on core `c`: the arrays as the region finds them; after the body each input's
    buffer at its block and the output's at `outBlock`; the invariant `Phi`; the adjacency matrix, which two windows
    read, held half by each; nothing owed. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => outBlock m c t
  Φ t := Phi m c t.val
  q w := match w with
    | ⟨0, _⟩ => fullShare.left
    | ⟨1, _⟩ => fullShare.right
    | ⟨2, _⟩ => fullShare
    | ⟨3, _⟩ => fullShare
    | ⟨4, _⟩ => fullShare
    | ⟨5, _⟩ => fullShare
  owed _ := 0

theorem A_eq (c : Dev nD) (w : Fin cfg0.W) : (dats m 0 c).A w = V m c (Pipeline.arrRef spec0 w) := by
  dsimp only [dats]

theorem after_0 (c : Dev nD) (t : Fin cfg0.N) : (dats m 0 c).after 0 t = iblk m c 0 t := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outBlock m c t := by dsimp only [dats]

/-- Each input's staging buffer holds its block at every point. -/
theorem before_0 (c : Dev nD) (t : Fin cfg0.N) (d) : (dats m 0 c).before 0 t d = iblk m c 0 t :=
  before_0_of m (dats m 0 c) (A_eq m c 0) (after_0 m c) t d
theorem before_1 (c : Dev nD) (t : Fin cfg0.N) (d) : (dats m 0 c).before 1 t d = iblk m c 1 t :=
  before_1_of m (dats m 0 c) (A_eq m c 1) (after_1 m c) t d
theorem before_2 (c : Dev nD) (t : Fin cfg0.N) (d) : (dats m 0 c).before 2 t d = iblk m c 2 t :=
  before_2_of m (dats m 0 c) (A_eq m c 2) (after_2 m c) t d
theorem before_3 (c : Dev nD) (t : Fin cfg0.N) (d) : (dats m 0 c).before 3 t d = iblk m c 3 t :=
  before_3_of m (dats m 0 c) (A_eq m c 3) (after_3 m c) t d
theorem before_4 (c : Dev nD) (t : Fin cfg0.N) (d) : (dats m 0 c).before 4 t d = iblk m c 4 t :=
  before_4_of m (dats m 0 c) (A_eq m c 4) (after_4 m c) t d

/-- The features' window is fetched once, so its block is the same at every point. -/
theorem iblk_2_const (c : Dev nD) (t : Fin cfg0.N) : iblk m c 2 t = iblk m c 2 t0 := rfl

theorem Phi_castSucc (c : Dev nD) (t : Fin cfg0.N) : (dats m 0 c).Φ t.castSucc = Phi m c t.val := by
  dsimp only [dats]; simp only [Fin.coe_castSucc]
theorem Phi_succ (c : Dev nD) (t : Fin cfg0.N) : (dats m 0 c).Φ t.succ = Phi m c (t.val + 1) := by
  dsimp only [dats]; simp only [Fin.val_succ]

/-- The core's scoped buffers that are no staging buffer are the two scratch buffers, each owned at some contents. -/
theorem scopedRest_eq (c : Dev nD) :
    (Pipeline.scopedRest (Ix := Unit) (Name := ℕ) (U := UR sig nD τ) (Lvl := ℕ) (Val := Elt F) spec0 c : sProp 𝕄)
      = iprop((∃ d, owns (c : Thread nD τ) scX fullShare d) ∗ (∃ d, owns (c : Thread nD τ) scY fullShare d)) := by
  rw [scopedRest0_eq]; simp only [scX, scY, owns_whole]; try rfl

/-- What the launch hands the region is the invariant before the first point: nothing is claimed of either scratch. -/
theorem hin (c : Dev nD) :
    iprop((BI.emp : sProp 𝕄) ∗ Pipeline.scopedRest (Ix := Unit) (Name := ℕ) (U := UR sig nD τ) (Lvl := ℕ) (Val := Elt F) spec0 c) ⊢ (dats m 0 c).Φ 0 := by
  rw [show (dats m 0 c).Φ 0 = Phi m c 0 from rfl, scopedRest_eq]
  unfold Phi
  iintro ⟨-, ⟨%dx, HX⟩, ⟨%dy, HY⟩⟩
  isplitl [HX]
  · iexists dx; isplitr; · ipureintro; intro h; exact absurd h (lt_irrefl 0)
    iexact HX
  · iexists dy; isplitr; · ipureintro; intro y hy; exact absurd hy (by simp)
    iexact HY

/-- After the last point the invariant gives the scratch buffers back at some contents. -/
theorem hout (c : Dev nD) :
    (dats m 0 c).Φ (Fin.last cfg0.N) ⊢ iprop((BI.emp : sProp 𝕄) ∗ Pipeline.scopedRest (Ix := Unit) (Name := ℕ) (U := UR sig nD τ) (Lvl := ℕ) (Val := Elt F) spec0 c) := by
  rw [show (dats m 0 c).Φ (Fin.last cfg0.N) = Phi m c (Fin.last cfg0.N).val from rfl, scopedRest_eq]
  unfold Phi
  iintro ⟨⟨%X, -, HX⟩, ⟨%Y, -, HY⟩⟩
  isplitr; · iempintro
  isplitl [HX]
  · iexists X; iexact HX
  · iexists Y; iexact HY

end Cert.KernelIdeal.Hand

end
-- ==== Proof.KI_Step.lean ====
/-
  How one grid point changes what the second scratch holds.

  A point `t` of phase 0 stores rows `400 · t + 200 .. 400 · t + 399` and then — listed newest first — rows
  `400 · t .. 400 · t + 199`, leaving every other row as it was: contents that held the first hop below row `400 · t` hold
  it below row `400 · (t + 1)`. From point 25 on every row is stored, so the contents are the first hop outright.
-/
import proofs.«148998_g4148938408473_cont_8to1_b_702_11_alg».proof.Proof.KI_Data

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- One point of phase 0 extends the rows of the first hop the second scratch holds by 400. -/
theorem YInv_step (c : Dev nD) (t : Fin cfg0.N) (ht : t.val < 25) (hc2 : k0_cond2 (grid0.coords t) = 1#1)
    (f : scY.view.ty.Contents (Elt F)) (hY : YInv m c t.val (scY.view.read (Elt F) f)) :
    YInv m c (t.val + 1) (scY.view.read (Elt F) (scY.view.writes (Elt F) f
      [⟨Rect.unit (s := S10000x128) (k0_off2 (grid0.coords t)) S200x128.size (Facts₀.k0_off2_inb (grid0.coords t) hc2), yblockB m c t⟩,
       ⟨Rect.unit (s := S10000x128) (k0_off1 (grid0.coords t)) S200x128.size (Facts₀.k0_off1_inb (grid0.coords t) hc2), yblockA m c t⟩])) := by
  intro y hy
  have hmin : min (t.val + 1) 25 = t.val + 1 := by omega
  have hmin' : min t.val 25 = t.val := by omega
  rw [hmin] at hy
  have hy0 : (y 0).val < 10000 := (y 0).isLt
  have hy1 : (y 1).val < 128 := (y 1).isLt
  by_cases h2 : 400 * t.val + 200 ≤ (y 0).val
  · -- the row lies in the newest piece
    have hlt : (y 0).val - (400 * t.val + 200) < 200 := by omega
    refine (View.read_writes_cons_rows_of_mem scY.view f (Facts₀.k0_off2_inb (grid0.coords t) hc2) (yblockB m c t) _ y
      (ValueIdx.ix2 ⟨(y 0).val - (400 * t.val + 200), hlt⟩ ⟨(y 1).val, hy1⟩) (off2_eq t ht)
      (by show (y 0).val = 400 * t.val + 200 + ((y 0).val - (400 * t.val + 200)); omega) rfl).trans ?_
    unfold yrows
    rw [dif_neg (by omega : ¬ (y 0).val % 400 < 200)]
    have hs : rowPoint (y 0).val (y 0).isLt = t := Fin.ext (by show (y 0).val / 400 = t.val; omega)
    have hi : (⟨(y 0).val - (400 * t.val + 200), hlt⟩ : Fin 200)
        = ⟨(y 0).val % 400 - 200, by have := Nat.mod_lt (y 0).val (show 0 < 400 by omega); omega⟩ := Fin.ext (by show (y 0).val - (400 * t.val + 200) = (y 0).val % 400 - 200; omega)
    rw [hs, hi]
  · by_cases h1 : 400 * t.val ≤ (y 0).val
    · -- the row lies in the older piece and not in the newest
      have hlt : (y 0).val - 400 * t.val < 200 := by omega
      refine (View.read_writes_cons_rows_of_not_mem scY.view f (Facts₀.k0_off2_inb (grid0.coords t) hc2) (yblockB m c t) _ y
        (off2_eq t ht) (W := 200) rfl (Or.inl (by omega))).trans ?_
      refine (View.read_writes_cons_rows_of_mem scY.view f (Facts₀.k0_off1_inb (grid0.coords t) hc2) (yblockA m c t) _ y
        (ValueIdx.ix2 ⟨(y 0).val - 400 * t.val, hlt⟩ ⟨(y 1).val, hy1⟩) (off1_eq t ht)
        (by show (y 0).val = 400 * t.val + ((y 0).val - 400 * t.val); omega) rfl).trans ?_
      unfold yrows
      have hm : (y 0).val % 400 < 200 := by omega
      rw [dif_pos hm]
      have hs : rowPoint (y 0).val (y 0).isLt = t := Fin.ext (by show (y 0).val / 400 = t.val; omega)
      have hi : (⟨(y 0).val - 400 * t.val, hlt⟩ : Fin 200) = ⟨(y 0).val % 400, hm⟩ := Fin.ext (by show (y 0).val - 400 * t.val = (y 0).val % 400; omega)
      rw [hs, hi]
    · -- the row lies in neither piece: it is as it was
      refine (View.read_writes_cons_rows_of_not_mem scY.view f (Facts₀.k0_off2_inb (grid0.coords t) hc2) (yblockB m c t) _ y
        (off2_eq t ht) (W := 200) rfl (Or.inl (by omega))).trans ?_
      refine (View.read_writes_cons_rows_of_not_mem scY.view f (Facts₀.k0_off1_inb (grid0.coords t) hc2) (yblockA m c t) _ y
        (off1_eq t ht) (W := 200) rfl (Or.inl (by omega))).trans ?_
      rw [View.writes_nil]
      exact hY y (by rw [hmin']; omega)

/-- From point 25 on every row has been stored: the contents are the first hop. -/
theorem YInv_full (c : Dev nD) (t : ℕ) (ht : 25 ≤ t) (Y : Vec F S10000x128 .bf16) (hY : YInv m c t Y) : Y = yrows m c :=
  funext fun y => hY y (by
    have h0 : (y 0).val < 10000 := (y 0).isLt
    have h1 : min t 25 = 25 := by omega
    rw [h1]; omega)

/-- and a further point changes nothing. -/
theorem YInv_succ_of_full (c : Dev nD) (t : ℕ) (ht : 25 ≤ t) (Y : Vec F S10000x128 .bf16) (hY : YInv m c t Y) : YInv m c (t + 1) Y := by
  intro y _; exact congrFun (YInv_full m c t ht Y hY) y

end Cert.KernelIdeal.Hand

end
-- ==== Proof.KI_RunA.lean ====
/-
  The kernel body at the first point, run once on symbolic memrefs.
-/
import proofs.«148998_g4148938408473_cont_8to1_b_702_11_alg».proof.Proof.KI_Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- The first point: the body copies the features into the first scratch (covering it whole), then stores 200 + 200
    rows of `A · x` into the second scratch over whatever it held; the output's buffer is not touched. The stored
    pieces are the witness the run finds. -/
noncomputable def runA (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole)
    (hc1 : cond1 i) (hc2 : k0_cond2 i = 1#1) (hc3 : ¬(k0_cond3 i = 1#1))
    (x0 x1 : Vec F S200x10000 .f32) (x2 : Vec F S10000x128 .f32) :
    Σ' (LX : List (View.Piece (Elt F) S10000x128 .bf16)), { LY : List (View.Piece (Elt F) S10000x128 .bf16) //
      ∀ (ys : Vec F S10000x128 .bf16) (E : Set ℕ) (K : PUnit → sProp 𝕄),
        iprop(owns (c : Thread nD τ) arg2 fullShare x0 ∗ owns (c : Thread nD τ) arg3 fullShare x1
            ∗ owns (c : Thread nD τ) arg4 fullShare x2
            ∗ (∃ d, owns (c : Thread nD τ) arg8 fullShare d) ∗ owns (c : Thread nD τ) arg9 fullShare ys
            ∗ (iprop(owns (c : Thread nD τ) arg2 fullShare x0 ∗ owns (c : Thread nD τ) arg3 fullShare x1
                ∗ owns (c : Thread nD τ) arg4 fullShare x2
                ∗ (∃ f, arg8.view.loc (c : Thread nD τ) ↦[arg8.view.set]{fullShare} arg8.view.writes (Elt F) f LX)
                ∗ (arg9.view.loc (c : Thread nD τ) ↦[arg9.view.set]{fullShare} arg9.view.writes (Elt F) (harg9.unread ys) LY)) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9) K } := by
  refine ⟨?_, ?_, fun ys E K => ?run⟩
  case run =>
    simp only [cc0__sgc_kernel_eq_skeleton]; unfold cc0__sgc_kernel_skel
    unfold owns
    iintro ⟨⟨%f0, %hf0, H0⟩, ⟨%f1, %hf1, H1⟩, ⟨%f2, %hf2, H2⟩, ⟨%d8, %f8, -, H8⟩, ⟨%f9, %hf9, H9⟩, Hk⟩
    obtain rfl := harg2.eq_unread hf0; obtain rfl := harg3.eq_unread hf1
    obtain rfl := harg4.eq_unread hf2; obtain rfl := harg9.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H8]
    · iexists _; iexact H8
    iexact H9

/-- What the run stores at the first point: the first scratch whole at the features' copy; into the second scratch,
    rows `k0_off2` onward the second block of `A` times that copy, rows `k0_off1` onward the first block times it. -/
theorem runA_piecesX (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole)
    (hc1 : cond1 i) (hc2 : k0_cond2 i = 1#1) (hc3 : ¬(k0_cond3 i = 1#1))
    (x0 x1 : Vec F S200x10000 .f32) (x2 : Vec F S10000x128 .f32) :
    (runA c i arg2 harg2 arg3 harg3 arg4 harg4 arg5 harg5 arg6 harg6 arg7 harg7 arg8 harg8 arg9 harg9 hc1 hc2 hc3 x0 x1 x2).1
      = [⟨Rect.unit (s := S10000x128) ![0, 0] S10000x128.size Facts₀.inb_S10000x128_S10000x128_0_0, k0_pay3 x2⟩] := by
  unfold runA; dsimp only; sl_unfold_words
  simp only [View.readAt_eq_ld, harg4.read_unread, View.ld_unit_zero (S := S10000x128) hz2]

theorem runA_piecesY (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole)
    (hc1 : cond1 i) (hc2 : k0_cond2 i = 1#1) (hc3 : ¬(k0_cond3 i = 1#1))
    (x0 x1 : Vec F S200x10000 .f32) (x2 : Vec F S10000x128 .f32) :
    (runA c i arg2 harg2 arg3 harg3 arg4 harg4 arg5 harg5 arg6 harg6 arg7 harg7 arg8 harg8 arg9 harg9 hc1 hc2 hc3 x0 x1 x2).2.1
      = [⟨Rect.unit (s := S10000x128) (k0_off2 i) S200x128.size (Facts₀.k0_off2_inb i hc2), k0_pay5 x1 (k0_pay3 x2)⟩,
         ⟨Rect.unit (s := S10000x128) (k0_off1 i) S200x128.size (Facts₀.k0_off1_inb i hc2), k0_pay4 x0 (k0_pay3 x2)⟩] := by
  unfold runA; dsimp only; sl_unfold_words
  simp only [View.readAt_eq_ld, harg2.read_unread, harg3.read_unread, harg4.read_unread,
    View.ld_unit_zero (S := S200x10000) hz2, View.ld_unit_zero (S := S10000x128) hz2,
    View.readCov_unit_zero (S := S10000x128) _ hz2]

end Cert.KernelIdeal.Hand

end
-- ==== Proof.KI_RunB.lean ====
/-
  The kernel body at a later point of phase 0 (points 1..24), run once on symbolic memrefs.
-/
import proofs.«148998_g4148938408473_cont_8to1_b_702_11_alg».proof.Proof.KI_Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- A later point of phase 0: the body stores 200 + 200 more rows of `A · x` into the second scratch over what it
    held, reading the features' copy from the first; the output's buffer is not touched. The stored pieces are the
    witness the run finds. -/
noncomputable def runB (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole)
    (hc1 : ¬cond1 i) (hc2 : k0_cond2 i = 1#1) (hc3 : ¬(k0_cond3 i = 1#1))
    (x0 x1 : Vec F S200x10000 .f32) (xs : Vec F S10000x128 .bf16) :
    { LY : List (View.Piece (Elt F) S10000x128 .bf16) //
      ∀ (ys : Vec F S10000x128 .bf16) (E : Set ℕ) (K : PUnit → sProp 𝕄),
        iprop(owns (c : Thread nD τ) arg2 fullShare x0 ∗ owns (c : Thread nD τ) arg3 fullShare x1
            ∗ owns (c : Thread nD τ) arg8 fullShare xs ∗ owns (c : Thread nD τ) arg9 fullShare ys
            ∗ (iprop(owns (c : Thread nD τ) arg2 fullShare x0 ∗ owns (c : Thread nD τ) arg3 fullShare x1
                ∗ owns (c : Thread nD τ) arg8 fullShare xs
                ∗ (arg9.view.loc (c : Thread nD τ) ↦[arg9.view.set]{fullShare} arg9.view.writes (Elt F) (harg9.unread ys) LY)) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9) K } := by
  refine ⟨?_, fun ys E K => ?run⟩
  case run =>
    simp only [cc0__sgc_kernel_eq_skeleton]; unfold cc0__sgc_kernel_skel
    unfold owns
    iintro ⟨⟨%f0, %hf0, H0⟩, ⟨%f1, %hf1, H1⟩, ⟨%f8, %hf8, H8⟩, ⟨%f9, %hf9, H9⟩, Hk⟩
    obtain rfl := harg2.eq_unread hf0; obtain rfl := harg3.eq_unread hf1
    obtain rfl := harg8.eq_unread hf8; obtain rfl := harg9.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H8]
    · iexists _; isplitr; · ipureintro; exact harg8.read_unread _
      iexact H8
    iexact H9

/-- What the run stores into the second scratch at a later point of phase 0: rows `k0_off2` onward hold the second
    block of `A` times the features' copy, rows `k0_off1` onward the first block times it. -/
theorem runB_pieces (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole)
    (hc1 : ¬cond1 i) (hc2 : k0_cond2 i = 1#1) (hc3 : ¬(k0_cond3 i = 1#1))
    (x0 x1 : Vec F S200x10000 .f32) (xs : Vec F S10000x128 .bf16) :
    (runB c i arg2 harg2 arg3 harg3 arg4 harg4 arg5 harg5 arg6 harg6 arg7 harg7 arg8 harg8 arg9 harg9 hc1 hc2 hc3 x0 x1 xs).1
      = [⟨Rect.unit (s := S10000x128) (k0_off2 i) S200x128.size (Facts₀.k0_off2_inb i hc2), k0_pay5 x1 xs⟩,
         ⟨Rect.unit (s := S10000x128) (k0_off1 i) S200x128.size (Facts₀.k0_off1_inb i hc2), k0_pay4 x0 xs⟩] := by
  unfold runB; dsimp only
  simp only [View.readAt_eq_ld, harg2.read_unread, harg3.read_unread, harg8.read_unread,
    View.ld_unit_zero (S := S200x10000) hz2, View.ld_unit_zero (S := S10000x128) hz2]

end Cert.KernelIdeal.Hand

end
-- ==== Proof.KI_RunC.lean ====
/-
  The kernel body at a point of phase 1 (points 25..49), run once on symbolic memrefs.
-/
import proofs.«148998_g4148938408473_cont_8to1_b_702_11_alg».proof.Proof.KI_Setup

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 4000000 in
/-- Phase 1: the body loads the two blocks of 200 rows of `A`, the first hop from scratch, the classifier and the bias,
    and stores 200 + 200 rows of the result into the output's staging buffer; the scratch and every input are left as
    they were. The stored pieces are the witness the run finds. -/
noncomputable def runC (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole)
    (hc1 : ¬cond1 i) (hc2 : ¬(k0_cond2 i = 1#1)) (hc3 : k0_cond3 i = 1#1)
    (x0 x1 : Vec F S200x10000 .f32) (x3 : Vec F S128x128 .f32) (x4 : Vec F S1x128 .f32) (ys : Vec F S10000x128 .bf16) :
    { L5 : List (View.Piece (Elt F) S400x128 .f32) //
      ∀ (E : Set ℕ) (K : PUnit → sProp 𝕄),
        iprop(owns (c : Thread nD τ) arg2 fullShare x0 ∗ owns (c : Thread nD τ) arg3 fullShare x1
            ∗ owns (c : Thread nD τ) arg5 fullShare x3 ∗ owns (c : Thread nD τ) arg6 fullShare x4
            ∗ (∃ d, owns (c : Thread nD τ) arg7 fullShare d) ∗ owns (c : Thread nD τ) arg9 fullShare ys
            ∗ (iprop(owns (c : Thread nD τ) arg2 fullShare x0 ∗ owns (c : Thread nD τ) arg3 fullShare x1
                ∗ owns (c : Thread nD τ) arg5 fullShare x3 ∗ owns (c : Thread nD τ) arg6 fullShare x4
                ∗ (∃ f, arg7.view.loc (c : Thread nD τ) ↦[arg7.view.set]{fullShare} arg7.view.writes (Elt F) f L5)
                ∗ owns (c : Thread nD τ) arg9 fullShare ys) -∗ K ⟨⟩))
          ⊢ wp frame (wpE (defs₀ (F := F)) Variants.none c none) E (cc0__sgc_kernel i arg2 harg2 arg3 harg3 arg4 harg4 arg5 harg5 arg6 harg6 arg7 harg7 arg8 harg8 arg9 harg9) K } := by
  refine ⟨?_, fun E K => ?run⟩
  case run =>
    simp only [cc0__sgc_kernel_eq_skeleton]; unfold cc0__sgc_kernel_skel
    unfold owns
    iintro ⟨⟨%f0, %hf0, H0⟩, ⟨%f1, %hf1, H1⟩, ⟨%f3, %hf3, H3⟩, ⟨%f4, %hf4, H4⟩, ⟨%d5, %f5, -, H5⟩, ⟨%f9, %hf9, H9⟩, Hk⟩
    obtain rfl := harg2.eq_unread hf0; obtain rfl := harg3.eq_unread hf1
    obtain rfl := harg5.eq_unread hf3; obtain rfl := harg6.eq_unread hf4; obtain rfl := harg9.eq_unread hf9
    sl_exec (disch := first | exact hc1 | exact hc2 | exact hc3)
    sl_step
    iapply Hk
    isplitl [H0]
    · iexists _; isplitr; · ipureintro; exact harg2.read_unread _
      iexact H0
    isplitl [H1]
    · iexists _; isplitr; · ipureintro; exact harg3.read_unread _
      iexact H1
    isplitl [H3]
    · iexists _; isplitr; · ipureintro; exact harg5.read_unread _
      iexact H3
    isplitl [H4]
    · iexists _; isplitr; · ipureintro; exact harg6.read_unread _
      iexact H4
    isplitl [H5]
    · iexists _; iexact H5
    iexists _; isplitr; · ipureintro; exact harg9.read_unread _
    iexact H9

/-- What the run stores into the output's staging buffer at a point of phase 1: rows 200..399 from the second block of
    `A`, rows 0..199 from the first, each the block times the first hop, times the classifier's rows, plus the bias, its
    rows log-softmaxed. -/
theorem runC_pieces (c : Dev nD) (i : grid0.Coords) (arg2 : Memref sig .tc .vmem S200x10000 .f32) (harg2 : arg2.IsWhole) (arg3 : Memref sig .tc .vmem S200x10000 .f32) (harg3 : arg3.IsWhole) (arg4 : Memref sig .tc .vmem S10000x128 .f32) (harg4 : arg4.IsWhole) (arg5 : Memref sig .tc .vmem S128x128 .f32) (harg5 : arg5.IsWhole) (arg6 : Memref sig .tc .vmem S1x128 .f32) (harg6 : arg6.IsWhole) (arg7 : Memref sig .tc .vmem S400x128 .f32) (harg7 : arg7.IsWhole) (arg8 : Memref sig .tc .vmem S10000x128 .bf16) (harg8 : arg8.IsWhole) (arg9 : Memref sig .tc .vmem S10000x128 .bf16) (harg9 : arg9.IsWhole)
    (hc1 : ¬cond1 i) (hc2 : ¬(k0_cond2 i = 1#1)) (hc3 : k0_cond3 i = 1#1)
    (x0 x1 : Vec F S200x10000 .f32) (x3 : Vec F S128x128 .f32) (x4 : Vec F S1x128 .f32) (ys : Vec F S10000x128 .bf16) :
    (runC c i arg2 harg2 arg3 harg3 arg4 harg4 arg5 harg5 arg6 harg6 arg7 harg7 arg8 harg8 arg9 harg9 hc1 hc2 hc3 x0 x1 x3 x4 ys).1
      = [⟨Rect.unit (s := S400x128) ![200, 0] S200x128.size Facts₀.inb_S400x128_S200x128_200_0, k0_pay7 (k0_pay2 x1) ys x3 x4⟩,
         ⟨Rect.unit (s := S400x128) ![0, 0] S200x128.size Facts₀.inb_S400x128_S200x128_0_0, k0_pay6 (k0_pay1 x0) ys x3 x4⟩] := by
  unfold runC; dsimp only; sl_unfold_words
  simp only [View.readAt_eq_ld, harg2.read_unread, harg3.read_unread, harg5.read_unread, harg6.read_unread, harg9.read_unread,
    View.ld_unit_zero (S := S200x10000) hz2, View.ld_unit_zero (S := S10000x128) hz2,
    View.ld_unit_zero (S := S128x128) hz2, View.ld_unit_zero (S := S1x128) hz2]

end Cert.KernelIdeal.Hand

end
-- ==== Proof.KI_Body.lean ====
/-
  The body obligation of the two-hop classifier's region: at every grid point, from the invariant and the windows'
  staging buffers at what they hold, the kernel body runs to the invariant at the next point and the buffers at what
  the proof data say it leaves. Three cases: the first point (the features are copied, 400 rows of the first hop
  stored), the later points of phase 0 (400 more rows), the points of phase 1 (400 rows of the result stored into the
  output's buffer, the scratch only read).
-/
import proofs.«148998_g4148938408473_cont_8to1_b_702_11_alg».proof.Proof.KI_Step
import proofs.«148998_g4148938408473_cont_8to1_b_702_11_alg».proof.Proof.KI_RunA
import proofs.«148998_g4148938408473_cont_8to1_b_702_11_alg».proof.Proof.KI_RunB
import proofs.«148998_g4148938408473_cont_8to1_b_702_11_alg».proof.Proof.KI_RunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- A store through the whole first scratch leaves its payload, whatever the scratch held. -/
theorem read_whole_store (f : scX.view.ty.Contents (Elt F)) (w : Vec F S10000x128 .bf16) :
    scX.view.read (Elt F) (scX.view.writes (Elt F) f
      [⟨Rect.unit (s := S10000x128) ![0, 0] S10000x128.size Facts₀.inb_S10000x128_S10000x128_0_0, w⟩]) = w := by
  rw [View.read_writes_eq_canon _ _ _ (View.cover_of_tiledL _ S10000x128.size (by sl_kernel_rfl))]
  exact View.canon_cons_unit_zero hz2 _ w []

/-- What the body is called with at point `t`, the windows one by one, -/
def bodyPre (c : Dev nD) (t : Fin cfg0.N) : sProp 𝕄 :=
  iprop((dats m 0 c).Φ t.castSucc ∗ (dats m 0 c).owesAt () t.castSucc
    ∗ (∃ d, owns (c : Thread nD τ) (ms_0 t) fullShare ((dats m 0 c).before 0 t d))
    ∗ (∃ d, owns (c : Thread nD τ) (ms_1 t) fullShare ((dats m 0 c).before 1 t d))
    ∗ (∃ d, owns (c : Thread nD τ) (ms_2 t) fullShare ((dats m 0 c).before 2 t d))
    ∗ (∃ d, owns (c : Thread nD τ) (ms_3 t) fullShare ((dats m 0 c).before 3 t d))
    ∗ (∃ d, owns (c : Thread nD τ) (ms_4 t) fullShare ((dats m 0 c).before 4 t d))
    ∗ (∃ d, owns (c : Thread nD τ) (ms_5 t) fullShare ((dats m 0 c).before 5 t d)))

/-- and what it returns. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t)

set_option maxHeartbeats 4000000 in
/-- The body at any point. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [Phi_castSucc, Phi_succ]
  rw [show (dats m 0 c).leavesExact 0 t = owns (c : Thread nD τ) (ms_0 t) fullShare ((dats m 0 c).after 0 t) from by
    unfold Dat.leavesExact; rw [live_0 t], after_0]
  rw [show (dats m 0 c).leavesExact 1 t = owns (c : Thread nD τ) (ms_1 t) fullShare ((dats m 0 c).after 1 t) from by
    unfold Dat.leavesExact; rw [live_1 t], after_1]
  rw [show (dats m 0 c).leavesExact 2 t = owns (c : Thread nD τ) (ms_2 t) fullShare ((dats m 0 c).after 2 t) from by
    unfold Dat.leavesExact; rw [live_2 t], after_2]
  rw [show (dats m 0 c).leavesExact 3 t = owns (c : Thread nD τ) (ms_3 t) fullShare ((dats m 0 c).after 3 t) from by
    unfold Dat.leavesExact; rw [live_3 t], after_3]
  rw [show (dats m 0 c).leavesExact 4 t = owns (c : Thread nD τ) (ms_4 t) fullShare ((dats m 0 c).after 4 t) from by
    unfold Dat.leavesExact; rw [live_4 t], after_4]
  have hN : t.val < 50 := lt_of_lt_of_eq t.isLt (show cfg0.N = 50 from N_0)
  by_cases hph : t.val < 25
  · -- phase 0: the output window is idle and not written back
    rw [Dat.leavesExact_idle (dats m 0 c) 5 t (idle_5 t hph) (noFlush_5 t hph)]
    have hc2 : k0_cond2 (grid0.coords t) = 1#1 := (hcond2 t).mpr hph
    have hc3 : ¬(k0_cond3 (grid0.coords t) = 1#1) := fun h => by have := (hcond3 t).mp h; omega
    unfold Phi
    by_cases hz : t.val = 0
    · -- the first point
      have hc1 : cond1 (grid0.coords t) := (hcond1 t).mpr hz
      obtain rfl : t = t0 := Fin.ext hz
      iintro ⟨⟨⟨%X, -, HX⟩, ⟨%Y, %hY, HY⟩⟩, Ho, ⟨%d0, H0⟩, ⟨%d1, H1⟩, ⟨%d2, H2⟩, ⟨%d3, H3⟩, ⟨%d4, H4⟩, ⟨%d5, H5⟩⟩
      iapply ((runA c (grid0.coords t0) (ms_0 t0) (hs_0 t0) (ms_1 t0) (hs_1 t0) (ms_2 t0) (hs_2 t0) (ms_3 t0) (hs_3 t0) (ms_4 t0) (hs_4 t0) (ms_5 t0) (hs_5 t0) scX (Memref.isWhole_whole _) scY (Memref.isWhole_whole _) hc1 hc2 hc3 (iblk m c 0 t0) (iblk m c 1 t0) (iblk m c 2 t0)).2.2 Y Set.univ _)
      isplitl [H0]; · iexact H0
      isplitl [H1]; · iexact H1
      isplitl [H2]; · iexact H2
      isplitl [HX]; · iexists X; iexact HX
      isplitl [HY]; · iexact HY
      iintro ⟨H0, H1, H2, ⟨%fx, HX⟩, HY⟩
      isplitl [HX HY]
      · isplitl [HX]
        · iexists (xcopy m c); isplitr
          · ipureintro; intro _; rfl
          · unfold owns; iexists _; isplitr
            swap; · iexact HX
            ipureintro
            rw [runA_piecesX]
            exact read_whole_store fx _
        · iexists _; isplitr
          swap
          · unfold owns; iexists _; isplitr
            swap; · iexact HY
            ipureintro; rfl
          ipureintro
          rw [runA_piecesY]
          exact YInv_step m c t0 hph hc2 _ (by rw [Memref.IsWhole.read_unread]; exact hY)
      isplitl [Ho]; · iexact Ho
      isplitl [H0]; · iexact H0
      isplitl [H1]; · iexact H1
      isplitl [H2]; · iexact H2
      isplitl [H3]; · iexact H3
      isplitl [H4]; · iexact H4
      iexists _; iexact H5
    · -- a later point of phase 0
      have hc1 : ¬cond1 (grid0.coords t) := fun h => hz ((hcond1 t).mp h)
      iintro ⟨⟨⟨%X, %hX, HX⟩, ⟨%Y, %hY, HY⟩⟩, Ho, ⟨%d0, H0⟩, ⟨%d1, H1⟩, ⟨%d2, H2⟩, ⟨%d3, H3⟩, ⟨%d4, H4⟩, ⟨%d5, H5⟩⟩
      obtain rfl : X = xcopy m c := hX (by omega)
      iapply ((runB c (grid0.coords t) (ms_0 t) (hs_0 t) (ms_1 t) (hs_1 t) (ms_2 t) (hs_2 t) (ms_3 t) (hs_3 t) (ms_4 t) (hs_4 t) (ms_5 t) (hs_5 t) scX (Memref.isWhole_whole _) scY (Memref.isWhole_whole _) hc1 hc2 hc3 (iblk m c 0 t) (iblk m c 1 t) (xcopy m c)).2 Y Set.univ _)
      isplitl [H0]; · iexact H0
      isplitl [H1]; · iexact H1
      isplitl [HX]; · iexact HX
      isplitl [HY]; · iexact HY
      iintro ⟨H0, H1, HX, HY⟩
      isplitl [HX HY]
      · isplitl [HX]
        · iexists (xcopy m c); isplitr
          · ipureintro; intro _; rfl
          · iexact HX
        · iexists _; isplitr
          swap
          · unfold owns; iexists _; isplitr
            swap; · iexact HY
            ipureintro; rfl
          ipureintro
          rw [runB_pieces]
          exact YInv_step m c t hph hc2 _ (by rw [Memref.IsWhole.read_unread]; exact hY)
      isplitl [Ho]; · iexact Ho
      isplitl [H0]; · iexact H0
      isplitl [H1]; · iexact H1
      isplitl [H2]; · iexact H2
      isplitl [H3]; · iexact H3
      isplitl [H4]; · iexact H4
      iexists _; iexact H5
  · -- phase 1: the output window is live
    have hph' : 25 ≤ t.val := Nat.le_of_not_lt hph
    rw [show (dats m 0 c).leavesExact 5 t = owns (c : Thread nD τ) (ms_5 t) fullShare ((dats m 0 c).after 5 t) from by
      unfold Dat.leavesExact; rw [live_5 t hph'], after_5]
    have hc1 : ¬cond1 (grid0.coords t) := fun h => by have := (hcond1 t).mp h; omega
    have hc2 : ¬(k0_cond2 (grid0.coords t) = 1#1) := fun h => by have := (hcond2 t).mp h; omega
    have hc3 : k0_cond3 (grid0.coords t) = 1#1 := (hcond3 t).mpr hph'
    unfold Phi
    iintro ⟨⟨⟨%X, %hX, HX⟩, ⟨%Y, %hY, HY⟩⟩, Ho, ⟨%d0, H0⟩, ⟨%d1, H1⟩, ⟨%d2, H2⟩, ⟨%d3, H3⟩, ⟨%d4, H4⟩, ⟨%d5, H5⟩⟩
    obtain rfl : Y = yrows m c := YInv_full m c t.val hph' Y hY
    iapply ((runC c (grid0.coords t) (ms_0 t) (hs_0 t) (ms_1 t) (hs_1 t) (ms_2 t) (hs_2 t) (ms_3 t) (hs_3 t) (ms_4 t) (hs_4 t) (ms_5 t) (hs_5 t) scX (Memref.isWhole_whole _) scY (Memref.isWhole_whole _) hc1 hc2 hc3 (iblk m c 0 t) (iblk m c 1 t) (iblk m c 3 t) (iblk m c 4 t) (yrows m c)).2 Set.univ _)
    isplitl [H0]; · iexact H0
    isplitl [H1]; · iexact H1
    isplitl [H3]; · iexact H3
    isplitl [H4]; · iexact H4
    isplitl [H5]; · iexists _; iexact H5
    isplitl [HY]; · iexact HY
    iintro ⟨H0, H1, H3, H4, ⟨%f5, H5⟩, HY⟩
    isplitl [HX HY]
    · isplitl [HX]
      · iexists X; isplitr
        · ipureintro; intro _; exact hX (by omega)
        · iexact HX
      · iexists (yrows m c); isplitr
        · ipureintro; exact YInv_succ_of_full m c t.val hph' _ hY
        · iexact HY
    isplitl [Ho]; · iexact Ho
    isplitl [H0]; · iexact H0
    isplitl [H1]; · iexact H1
    isplitl [H2]; · iexact H2
    isplitl [H3]; · iexact H3
    isplitl [H4]; · iexact H4
    unfold owns; iexists _; isplitr
    swap; · iexact H5
    ipureintro
    rw [runC_pieces]
    exact View.read_writes_eq_canon _ _ _ (outPieces_cover m c t)

/-- The library's body obligation, at every point. -/
theorem body_obligation (c : Dev nD) : BodyObligation (dats (F := F) m 0 c) (defs₀ (F := F)) Variants.none () Set.univ := fun t => by
  rw [bigSep_W0, bigSep_W0]
  exact sound_body m c t

end Cert.KernelIdeal.Hand

end
-- ==== Proof.KI_Launch.lean ====
/-
  The launch of the two-hop classifier's region, and the frame.

  The adjacency matrix is handed to the kernel through two windows; the launch deals its buffer's full share to them
  half and half. Every other array goes to its one window whole. The region's invariant is entered from the scratch
  buffers at any contents and gives them back at the end. What the run concludes: every window's array ends at what
  the write-backs made of it — an input's as the region found it, the output's as the points of phase 1 wrote it — and
  the buffers the region does not stage are as they were when it was entered.
-/
import proofs.«148998_g4148938408473_cont_8to1_b_702_11_alg».proof.Proof.KI_Body

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)
open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- The windows' arrays as points-tos of their buffers, each at the share the proof data give the window. -/
theorem arrays_eq (c : Dev nD) (G : (w : Fin cfg0.W) → Buf (Elt F) ((cfg0.win w).arr.view.loc (c.tc : Thread nD τ))) :
    (dats m 0 c).arrays G = bigSep Finset.univ fun w : Fin cfg0.W =>
      (((c.tc : Thread nD τ).loc (Pipeline.arrRef spec0 w)) ↦{(dats m 0 c).share w} G w : sProp 𝕄) := by
  unfold Dat.arrays
  exact bigSep_congr fun w _ => by rw [(arr_whole0 w).set_eq_univ]

/-- The distinct buffers behind the windows' arrays, one by one: the adjacency matrix once, though two windows read it. -/
theorem arrBufs_eq (c : Dev nD) :
    (Pipeline.arrBufs (Ix := Unit) (Name := ℕ) (U := UR sig nD τ) (Lvl := ℕ) spec0 c (V m c) : sProp 𝕄)
      = iprop((((c.tc : Thread nD τ).loc main_arg1) ↦{fullShare} V m c main_arg1) ∗ (((c.tc : Thread nD τ).loc main_arg0) ↦{fullShare} V m c main_arg0)
          ∗ (((c.tc : Thread nD τ).loc main_arg2) ↦{fullShare} V m c main_arg2) ∗ (((c.tc : Thread nD τ).loc main_v0) ↦{fullShare} V m c main_v0)
          ∗ (((c.tc : Thread nD τ).loc main_v1) ↦{fullShare} V m c main_v1)) := by
  unfold Pipeline.arrBufs
  exact bigSep_eq_bigSepL_of_eq [main_arg1, main_arg0, main_arg2, main_v0, main_v1] (by decide) (by decide) _

/-- The buffers behind the windows' arrays, whole at the region's entry contents, are the proof data's arrays: the
    adjacency matrix's full share split in two for the two windows that read it. -/
theorem hsplit (c : Dev nD) :
    (Pipeline.arrBufs (Ix := Unit) (Name := ℕ) (U := UR sig nD τ) (Lvl := ℕ) spec0 c (V m c) : sProp 𝕄)
      ⊢ (dats m 0 c).arrays ((dats m 0 c).arrAt · 0) := by
  rw [arrays_eq, bigSep_W0, arrBufs_eq]
  iintro ⟨HA, Hx, HW, Hb, Ho⟩
  icases (pointsTo_share (PosShare.mem_left_op_right fullShare)).1 $$ HA with ⟨HAl, HAr⟩
  isplitl [HAl]; · iexact HAl
  isplitl [HAr]; · iexact HAr
  isplitl [Hx]; · iexact Hx
  isplitl [HW]; · iexact HW
  isplitl [Hb]; · iexact Hb
  iexact Ho

set_option backward.isDefEq.respectTransparency.types false in
/-- At the compiled mesh, for any values, from any memory with zero counters: every weakly fair execution of @main
    terminates, every array of the pipeline ends at what the write-backs made of its entry contents, and every other
    unscoped buffer ends as the region found it. -/
theorem run_main : θ_run defs (onTc (τ := τ) (main (F := F))) (s₀ m ρ) (Pipeline.FramePost cfgs (dats m) 0 (V m)) :=
  Pipeline.θ_run_region_noSem_shared cfgs (dats m) () cellOf_inj (0 : Fin 1) winFacts₀0 emb₁ defs₀ Variants.none m ρ main
    (hbody := fun c => (body_obligation m c).loose)
    (hne := block_pos0) (harr := arr_whole0) (hstage := stage_whole0)
    (howed := fun _ _ => rfl)
    (u₀ := initOf (Pipeline.cells cfgs cellOf_inj) (Pipeline.launchToks cfgs cellOf_inj))
    (hu₀ := .rfl)
    (V := V m) (hmain := hmain m Variants.none)
    (hsplit := hsplit m)
    (X := fun _ => BI.emp) (Y := fun _ => BI.emp)
    (Z := fun c => Pipeline.unscopedRest (Ix := Unit) (Name := ℕ) (U := UR sig nD τ) (Lvl := ℕ) spec0 c (V m c))
    (hX := fun c => by iintro H; isplitr; · iempintro
                       iexact H)
    (hin := hin m) (hout := hout m)
    (QY := fun c s => ∀ b ∈ Pipeline.restRefs sig spec0, s.mem ((c.tc : Thread nD τ).loc b) = V m c b)
    (hY := fun c s' => by
      iintro ⟨-, HU, HSI⟩
      unfold Pipeline.unscopedRest
      imodintro
      iapply (pointsTo_read_all (Pipeline.restRefs sig spec0) (fun b => (c.tc : Thread nD τ).loc b) (V m c) s')
      isplitl [HU] <;> iassumption)
    (hQ := fun s h c => ⟨(h c).1, (h c).2⟩)

/-- info: 'Cert.KernelIdeal.Hand.run_main' depends on axioms: [propext, Classical.choice, Quot.sound] -/
#guard_msgs in #print axioms run_main

/-- The frame: the program runs to the end, faults nowhere, and leaves its four argument arrays as they were. The
    features, the adjacency matrix and the classifier are windows' arrays, never written back; the bias is staged by no
    window and no host operation writes any of the four. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩) (run_main m ρ)

end Cert.KernelIdeal.Hand

end
-- ==== Proof.LibColumnLayout.lean ====
/-
  A column of row sums, laid along the rows and along the columns of a matrix, read at an index.

  A kernel that sums the rows of an `[a, b]` matrix with `keepdims` holds the sums as a column `[a, 1]`; it then
  either broadcasts that column over `b` columns, or transposes it into a row `[1, a]` and broadcasts the row over
  many rows. The lemmas here read each of those steps at an index given by its coordinates:

  * `multiReduction_add_rows_apply` — the sum over the second axis of `[a, b]`, at row `p`, is `∑ₖ src (p, k)`;
  * `shapeCast_a_a1_apply` — a vector `[a]` cast to the column `[a, 1]` reads, at `(i, u)`, the vector at `i`;
  * `broadcastTo_a1_ab_apply` — a column `[a, 1]` broadcast to `[a, b]` reads, at `(i, j)`, the column at `(i, 0)`;
  * `column_over_columns_apply` / `column_as_row_over_rows_apply` — the two compositions a kernel prints: the
    vector `w` as a column over all columns is `w i` at `(i, j)`, and as a transposed row over all rows is `w j`.

  All are generic in the extents and in the element type; none uses anything of the arithmetic.
-/
import Idealize.ShloMosaic.Lib.Pipeline.Value
import Idealize.ShloMosaic.Lib.ValueIdx
import Idealize.ShloMosaic.Lib.ValueLayout
import Idealize.ShloMosaic.PureOps.Ideal.Laws

namespace Cert.ColumnLayout

open Idealize.ShloMosaic Idealize.ShloMosaic.ValueIdx

variable {α : Type}

/-- The sum over the second axis of an `[a, b]` matrix, read at row `p` at the ideal values: the sum over the `b`
    entries of that row. -/
theorem multiReduction_add_rows_apply {a b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.add.neutral φ hφ)
    (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

/-- A vector `[a]` cast to the column `[a, 1]` reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(i, j)`, the column's entry of row `i`. -/
theorem broadcastTo_a1_ab_apply {a b : ℕ} (v : (⟨2, ![a, 1]⟩ : Shape).Idx → α)
    (h : (⟨2, ![a, 1]⟩ : Shape).Broadcasts ⟨2, ![a, b]⟩) (i : Fin a) (j : Fin b) :
    broadcastTo ⟨2, ![a, b]⟩ v h (ix2 i j) = v (ix2 i (0 : Fin 1)) := by
  refine broadcastTo_apply v h (ix2 i j) (ix2 i (0 : Fin 1)) fun ax => ?_
  match ax with
  | ⟨0, _⟩ =>
    show i.val = if a = 1 then 0 else i.val
    split
    · have := i.isLt; omega
    · rfl
  | ⟨1, _⟩ => rfl

/-- A vector `w` set as a column and broadcast over `b` columns: at `(i, j)` it is `w i`. -/
theorem column_over_columns_apply {a b : ℕ} (w : (⟨1, ![a]⟩ : Shape).Idx → α)
    (hc : (⟨1, ![a]⟩ : Shape).ShapeCasts ⟨2, ![a, 1]⟩) (hb : (⟨2, ![a, 1]⟩ : Shape).Broadcasts ⟨2, ![a, b]⟩)
    (i : Fin a) (j : Fin b) :
    broadcastTo ⟨2, ![a, b]⟩ (shapeCast ⟨2, ![a, 1]⟩ w hc) hb (ix2 i j) = w (ix1 i) :=
  (broadcastTo_a1_ab_apply _ hb i j).trans (shapeCast_a_a1_apply w hc i 0)

/-- A vector `w` set as a column, transposed into a row, and broadcast over `a` rows: at `(i, j)` it is `w j`. -/
theorem column_as_row_over_rows_apply {a b : ℕ} (w : (⟨1, ![b]⟩ : Shape).Idx → α)
    (hc : (⟨1, ![b]⟩ : Shape).ShapeCasts ⟨2, ![b, 1]⟩) (ht : (⟨2, ![b, 1]⟩ : Shape).Transposes [1, 0] ⟨2, ![1, b]⟩)
    (hb : (⟨2, ![1, b]⟩ : Shape).Broadcasts ⟨2, ![a, b]⟩) (i : Fin a) (j : Fin b) :
    broadcastTo ⟨2, ![a, b]⟩ (transpose ⟨2, ![1, b]⟩ [1, 0] (shapeCast ⟨2, ![b, 1]⟩ w hc) ht) hb (ix2 i j) = w (ix1 j) :=
  (broadcastTo_1b_ab_apply _ hb i j).trans
    ((transpose_ix2_apply _ ht (0 : Fin 1) j).trans (shapeCast_a_a1_apply w hc j 0))

end Cert.ColumnLayout
-- ==== Proof.LibDenseLayer.lean ====
/-
  The dense half of a graph-convolution layer, as plain functions of matrices of extended reals.

  A layer multiplies an `[a, K]` matrix `x` by a `[K, N]` matrix `w` and then either clamps every entry at zero from
  below (`reluLayer`) or normalises every row by the softmax (`softmaxLayer`): the row's entries minus the row's
  maximum, exponentiated, divided by the row's sum of those exponentials. Everything is stated entry by entry, at
  the row `r` and the column `q`, so that it reads the same on a block of rows and on the whole matrix: entry
  `(r, q)` of either layer depends on `x` only through row `r` (`prodRow_congr`).

  Then each operation a vector program or a host program spells these layers with, read at an index at the ideal
  values: a matrix product into a zero accumulator and a `dot_general` as `prodRow` (for dimension numbers that
  contract the second axis of the left operand with the first of the right: `PlainDot`), a row maximum taken by a
  vector reduction or by a host reduction as the fold of `max` over the row, a host row sum as the initial value plus
  the sum over the row; and a vector program's whole row softmax (`vector_softmax_apply`), its column of row maxima and
  its column of row sums laid over the columns by a shape cast and a broadcast.

  All are generic in the extents.
-/
import Idealize.ShloMosaic.Lib.Pipeline.Value
import Idealize.ShloMosaic.Lib.ValueIdx
import Idealize.ShloMosaic.Lib.ValueLayout
import Idealize.ShloMosaic.Lib.IdealHost
import Idealize.ShloMosaic.PureOps.Ideal.Laws
import proofs.«148998_g4148938408473_cont_8to1_b_702_11_alg».proof.Proof.LibColumnLayout

noncomputable section

namespace Cert.DenseLayer

open Idealize.ShloMosaic Idealize.ShloMosaic.ValueIdx

/-- A `[p, q]` matrix of extended reals, indexed as the arrays are. -/
abbrev Mat (p q : ℕ) : Type := (⟨2, ![p, q]⟩ : Shape).Idx → EReal

variable {a K N : ℕ}

/-! ## The layers -/

/-- Row `r` of the product `x · w`: in column `q` the sum over `k` of `x (r, k) · w (k, q)`. -/
def prodRow (x : Mat a K) (w : Mat K N) (r : Fin a) : Fin N → EReal :=
  fun q => ∑ k : Fin K, x (ix2 r k) * w (ix2 k q)

/-- A row of the product depends on the left matrix only through that row: two left matrices, of any heights,
    that agree along a row of each give the same row of products. -/
theorem prodRow_congr {a' : ℕ} (x : Mat a K) (x' : Mat a' K) (w : Mat K N) (r : Fin a) (r' : Fin a')
    (h : ∀ k, x (ix2 r k) = x' (ix2 r' k)) : prodRow x w r = prodRow x' w r' :=
  funext fun q => Finset.sum_congr rfl fun k _ => by rw [h k]

/-- The product clamped at zero from below, entry by entry (the zero written as the word a program writes). -/
def reluLayer (x : Mat a K) (w : Mat K N) : Mat a N :=
  fun i => max (prodRow x w (i 0) (i 1)) (Ideal.ofBits .f32 0x00000000#32)

/-- The maximum of a row, taken from `-∞` (the word a program writes) and once more against `-∞`. -/
def rowTop (z : Fin N → EReal) : EReal :=
  max (Ideal.ofBits .f32 0xFF800000#32) (Finset.univ.fold max (Ideal.ofBits .f32 0xFF800000#32) z)

/-- The softmax of a row at column `q`: `exp (z q - top)` over the sum of `exp (z j - top)` along the row. -/
def softmaxRow (z : Fin N → EReal) (q : Fin N) : EReal :=
  Ideal.div (Ideal.exp (z q - rowTop z)) (∑ j : Fin N, Ideal.exp (z j - rowTop z))

/-- The product with every row normalised by the softmax. -/
def softmaxLayer (x : Mat a K) (w : Mat K N) : Mat a N :=
  fun i => softmaxRow (prodRow x w (i 0)) (i 1)

theorem reluLayer_apply (x : Mat a K) (w : Mat K N) (r : Fin a) (q : Fin N) :
    reluLayer x w (ix2 r q) = max (prodRow x w r q) (Ideal.ofBits .f32 0x00000000#32) := rfl

theorem softmaxLayer_apply (x : Mat a K) (w : Mat K N) (r : Fin a) (q : Fin N) :
    softmaxLayer x w (ix2 r q) = softmaxRow (prodRow x w r) q := rfl

/-! ## A matrix product read at an index -/

/-- Dimension numbers of a plain product `[a, K] × [K, N] → [a, N]`: one contracted axis of extent `K`, the left
    operand read at `(row, k)` and the right at `(k, column)`. -/
structure PlainDot (d : DotDims ⟨2, ![a, K]⟩ ⟨2, ![K, N]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (q ⟨0, by omega⟩).val
  rhs1 : ∀ (i : (⟨2, ![a, N]⟩ : Shape).Idx) (q : d.contr.Idx), (d.rhsIdx i q 1).val = (i 1).val

/-- The contraction's sum over its own index type is the sum over `k : Fin K` of the row times the column. -/
theorem sum_contr_eq_prodRow {d : DotDims ⟨2, ![a, K]⟩ ⟨2, ![K, N]⟩ ⟨2, ![a, N]⟩} (hd : PlainDot d)
    (x : Mat a K) (w : Mat K N) (i : (⟨2, ![a, N]⟩ : Shape).Idx) :
    ∑ k : d.contr.Idx, x (d.lhsIdx i k) * w (d.rhsIdx i k) = prodRow x w (i 0) (i 1) := by
  unfold prodRow
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 k (i 1) := funext fun ax => Fin.ext (by
    match ax with
    | ⟨0, _⟩ => exact (hd.rhs0 _ _).trans hk
    | ⟨1, _⟩ => exact hd.rhs1 _ _)
  rw [el, er]
  rfl

/-- A vector program's matrix product into the zero accumulator, at the ideal values, is `prodRow` entry by entry,
    whatever the operands' float formats. -/
theorem matmul_zero_apply {φ₁ φ₂ : FTy} {d : DotDims ⟨2, ![a, K]⟩ ⟨2, ![K, N]⟩ ⟨2, ![a, N]⟩} (hd : PlainDot d)
    (prec : Option ContractPrecision) (x : FVec Ideal ⟨2, ![a, K]⟩ φ₁) (w : FVec Ideal ⟨2, ![K, N]⟩ φ₂)
    (i : (⟨2, ![a, N]⟩ : Shape).Idx) :
    FloatOps.matmul d prec x w (constant ⟨2, ![a, N]⟩ .f32 0x00000000#32) i = prodRow x w (i 0) (i 1) :=
  (Ideal.matmul_constant_zero_apply d prec x w i).trans (sum_contr_eq_prodRow hd x w i)

/-- A host program's `dot_general`, at the ideal values, is `prodRow` entry by entry. -/
theorem dotGeneral_apply {φ₁ φ₂ : FTy} {d : DotDims ⟨2, ![a, K]⟩ ⟨2, ![K, N]⟩ ⟨2, ![a, N]⟩} (hd : PlainDot d)
    (prec : Option ContractPrecision) (sched : HostSchedule) (x : FVec Ideal ⟨2, ![a, K]⟩ φ₁)
    (w : FVec Ideal ⟨2, ![K, N]⟩ φ₂) (i : (⟨2, ![a, N]⟩ : Shape).Idx) :
    FloatOps.dotGeneral d prec sched x w i = prodRow x w (i 0) (i 1) :=
  (Ideal.dotGeneral_apply d prec sched x w i).trans (sum_contr_eq_prodRow hd x w i)

/-! ## A row's maximum and a row's sum read at an index -/

/-- Inserting the coordinate `k` on the second axis over the row index `p` gives `(p, k)`. -/
theorem lift_rows {b : ℕ} (h : (⟨2, ![a, b]⟩ : Shape).Reduces [1] ⟨1, ![a]⟩) (p : Fin a) (k : Fin b) :
    h.lift (ix1 p) k = ix2 p k :=
  funext fun ax => Fin.ext (by
    match ax with
    | ⟨0, _⟩ => rfl
    | ⟨1, _⟩ => rfl)

/-- A vector program's maximum over the second axis of `[a, b]`, at row `p` at the ideal values: the fold of `max`
    from the accumulator's value over the row's `b` entries. -/
theorem multiReduction_max_rows_apply {b : ℕ} {φ : FTy} (src : FVec Ideal ⟨2, ![a, b]⟩ φ) (acc : BitVec φ.bits)
    (h : (⟨2, ![a, b]⟩ : Shape).Reduces [1] ⟨1, ![a]⟩) (hφ : FKind.Formats φ) (hacc : acc = FKind.maximumf.neutral φ hφ)
    (p : Fin a) :
    multiReduction .maximumf [1] ⟨1, ![a]⟩ src acc h hφ hacc (ix1 p)
      = (Finset.univ : Finset (Fin b)).fold max (Ideal.ofBits φ acc) (fun k => src (ix2 p k)) :=
  (Ideal.multiReduction_maximumf_single src acc h hφ hacc (ix1 p)).trans
    (congrArg (fun f : Fin b → EReal => (Finset.univ : Finset (Fin b)).fold max (Ideal.ofBits φ acc) f)
      (funext fun k => congrArg src (lift_rows h p k)))

/-- A host program's maximum over the second axis of `[a, b]`, at row `p` at the ideal values: the fold of `max`
    from the initial value over the row's `b` entries. -/
theorem hostReduce_max_rows_apply {b : ℕ} {φ : FTy} {u : Shape} (x : FVec Ideal ⟨2, ![a, b]⟩ φ) (init : u.Idx → Ideal φ)
    (h' : (⟨2, ![a, b]⟩ : Shape).ReducesTo [1] ⟨1, ![a]⟩) (h : (⟨2, ![a, b]⟩ : Shape).Reduces [1] ⟨1, ![a]⟩)
    (hu : 0 < u.numel) (p : Fin a) :
    Host.reduce (FloatOps.maximumf (F := Ideal) (φ := φ)) x init h' hu (ix1 p)
      = (Finset.univ : Finset (Fin b)).fold max (init (Shape.Idx.first hu)) (fun k => x (ix2 p k)) :=
  (Host.reduce_eq_fold_single (FloatOps.maximumf (F := Ideal) (φ := φ)) x init h' h hu (ix1 p)).trans
    (congrArg (fun f : Fin b → EReal => (Finset.univ : Finset (Fin b)).fold max (init (Shape.Idx.first hu)) f)
      (funext fun k => congrArg x (lift_rows h p k)))

/-! ## A vector program's row softmax read at an index -/

section VectorSoftmax

variable {b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z` as a vector program takes them — the reduction from `-∞`, once more against a splat of
    `-∞` — set as a column and laid over the `b` columns. -/
def vecTop : FVec Ideal ⟨2, ![a, b]⟩ .f32 :=
  broadcastTo ⟨2, ![a, b]⟩
    (shapeCast ⟨2, ![a, 1]⟩
      (maximumf (broadcast ⟨1, ![a]⟩ (Scalar.ofBits (F := Ideal) .f32 0xFF800000#32))
        (multiReduction .maximumf [1] ⟨1, ![a]⟩ z 0xFF800000#32 hr hφ hmax)) hc) hb

/-- At `(p, q)` it is the maximum of row `p`, whatever the column. -/
theorem vecTop_apply (p : Fin a) (q : Fin b) :
    vecTop z hr hc hb hφ hmax (ix2 p q) = rowTop (fun k => z (ix2 p k)) :=
  (Cert.ColumnLayout.column_over_columns_apply _ hc hb p q).trans
    (congrArg (max (Ideal.ofBits .f32 0xFF800000#32)) (multiReduction_max_rows_apply z _ hr hφ hmax p))

/-- The whole row softmax of a vector program — the entries minus the laid-out row maxima, exponentiated, divided by
    their row sums laid out the same way — is `softmaxRow` of the row, entry by entry. -/
theorem vector_softmax_apply (p : Fin a) (q : Fin b) :
    divf (exp (subf z (vecTop z hr hc hb hφ hmax)))
        (broadcastTo ⟨2, ![a, b]⟩
          (shapeCast ⟨2, ![a, 1]⟩
            (multiReduction .add [1] ⟨1, ![a]⟩ (exp (subf z (vecTop z hr hc hb hφ hmax))) 0x00000000#32 hr hφ hadd) hc) hb)
        (ix2 p q)
      = softmaxRow (fun k => z (ix2 p k)) q := by
  have hE : ∀ k : Fin b, exp (subf z (vecTop z hr hc hb hφ hmax)) (ix2 p k)
      = Ideal.exp (z (ix2 p k) - rowTop (fun k => z (ix2 p k))) := fun k => by
    show Ideal.exp (z (ix2 p k) - vecTop z hr hc hb hφ hmax (ix2 p k)) = _
    rw [vecTop_apply]
  show Ideal.div (exp (subf z (vecTop z hr hc hb hφ hmax)) (ix2 p q)) _ = _
  rw [hE q, Cert.ColumnLayout.column_over_columns_apply, Cert.ColumnLayout.multiReduction_add_rows_apply]
  unfold softmaxRow
  exact congrArg (Ideal.div _) (Finset.sum_congr rfl fun k _ => hE k)

end VectorSoftmax

end Cert.DenseLayer

end
-- ==== Proof.LibRowsDot.lean ====
/-
  Products of a matrix with the ROWS of another: `x · wᵀ`, entry by entry, and the operations that spell it.

  For `x : [a, K]` and `w : [N, K]`, row `r` of `x · wᵀ` has in column `q` the sum over `k` of
  `x (r, k) · w (q, k)` (`prodRowT`): the contraction runs along the second axis of both factors, as in
  `einsum('bi,oi->bo')` or a linear layer that stores its weight as `[out, in]`.

  * `prodRow_transposed` — the plain product `prodRow` (row times column) with a matrix that is `w` transposed
    is `prodRowT` with `w`: how a program that is handed `wᵀ` and contracts its first axis meets one that
    contracts the second axis of `w` itself;
  * `RowsDot` — what it means for a contraction's dimension numbers to be of this kind (one contracted axis, the
    left operand read at `(row, k)`, the right at `(column, k)`), and `sum_contr_eq_prodRowT`: such a
    contraction's sum over its own index type is `prodRowT`;
  * `dotGeneral_rows_apply` — a host program's `dot_general` of this kind, at the ideal values, is `prodRowT`
    entry by entry, whatever the operands' float formats.

  All are generic in the extents.
-/
import Idealize.ShloMosaic.Lib.Pipeline.Value
import Idealize.ShloMosaic.Lib.ValueIdx
import Idealize.ShloMosaic.PureOps.Ideal.Laws
import proofs.«148998_g4148938408473_cont_8to1_b_702_11_alg».proof.Proof.LibDenseLayer

noncomputable section

namespace Cert.DenseRows

open Idealize.ShloMosaic Idealize.ShloMosaic.ValueIdx
open Cert.DenseLayer (Mat prodRow)

variable {a K N : ℕ}

/-- Row `r` of `x · wᵀ`: in column `q` the sum over `k` of `x (r, k) · w (q, k)`. -/
def prodRowT (x : Mat a K) (w : Mat N K) (r : Fin a) : Fin N → EReal :=
  fun q => ∑ k : Fin K, x (ix2 r k) * w (ix2 q k)

/-- An entry of the product depends on the left matrix only through its row, and on the right matrix only through
    the row of the column asked for: matrices of any heights that agree along those rows give the same entry. -/
theorem prodRowT_congr {a' N' : ℕ} (x : Mat a K) (x' : Mat a' K) (w : Mat N K) (w' : Mat N' K) (r : Fin a) (r' : Fin a')
    (q : Fin N) (q' : Fin N') (hx : ∀ k, x (ix2 r k) = x' (ix2 r' k)) (hw : ∀ k, w (ix2 q k) = w' (ix2 q' k)) :
    prodRowT x w r q = prodRowT x' w' r' q' :=
  Finset.sum_congr rfl fun k _ => by rw [hx k, hw k]

/-- The plain product with a matrix that is `w` transposed is the product with the rows of `w`. -/
theorem prodRow_transposed (x : Mat a K) (wT : Mat K N) (w : Mat N K) (h : ∀ k q, wT (ix2 k q) = w (ix2 q k))
    (r : Fin a) (q : Fin N) : prodRow x wT r q = prodRowT x w r q :=
  Finset.sum_congr rfl fun k _ => by rw [h k q]

/-- Dimension numbers of a product `[a, K] × [N, K] → [a, N]` along the second axis of both factors: one
    contracted axis of extent `K`, the left operand read at `(row, k)` and the right at `(column, k)`. -/
structure RowsDot (d : DotDims ⟨2, ![a, K]⟩ ⟨2, ![N, K]⟩ ⟨2, ![a, N]⟩) : Prop where
  rank : d.contr.rank = 1
  size : d.contr.size ⟨0, by omega⟩ = K
  lhs0 : ∀ (i : (⟨2, ![a, N]⟩ : Shape).Idx) (q : d.contr.Idx), (d.lhsIdx i q 0).val = (i 0).val
  lhs1 : ∀ (i : (⟨2, ![a, N]⟩ : Shape).Idx) (q : d.contr.Idx), (d.lhsIdx i q 1).val = (q ⟨0, by omega⟩).val
  rhs0 : ∀ (i : (⟨2, ![a, N]⟩ : Shape).Idx) (q : d.contr.Idx), (d.rhsIdx i q 0).val = (i 1).val
  rhs1 : ∀ (i : (⟨2, ![a, N]⟩ : Shape).Idx) (q : d.contr.Idx), (d.rhsIdx i q 1).val = (q ⟨0, by omega⟩).val

/-- Such a contraction's sum over its own index type is `prodRowT`. -/
theorem sum_contr_eq_prodRowT {d : DotDims ⟨2, ![a, K]⟩ ⟨2, ![N, K]⟩ ⟨2, ![a, N]⟩} (hd : RowsDot d)
    (x : Mat a K) (w : Mat N K) (i : (⟨2, ![a, N]⟩ : Shape).Idx) :
    ∑ k : d.contr.Idx, x (d.lhsIdx i k) * w (d.rhsIdx i k) = prodRowT x w (i 0) (i 1) := by
  unfold prodRowT
  rw [← Equiv.sum_comp (contrEquiv1 d K hd.rank hd.size).symm]
  refine Finset.sum_congr rfl fun k _ => ?_
  have hk := contrEquiv1_symm_val d K hd.rank hd.size k
  have el : d.lhsIdx i ((contrEquiv1 d K hd.rank hd.size).symm k) = ix2 (i 0) k := funext fun ax => Fin.ext (by
    match ax with
    | ⟨0, _⟩ => exact hd.lhs0 _ _
    | ⟨1, _⟩ => exact (hd.lhs1 _ _).trans hk)
  have er : d.rhsIdx i ((contrEquiv1 d K hd.rank hd.size).symm k) = ix2 (i 1) k := funext fun ax => Fin.ext (by
    match ax with
    | ⟨0, _⟩ => exact hd.rhs0 _ _
    | ⟨1, _⟩ => exact (hd.rhs1 _ _).trans hk)
  rw [el, er]
  rfl

/-- A host program's `dot_general` along the second axis of both operands, at the ideal values, is `prodRowT`
    entry by entry. -/
theorem dotGeneral_rows_apply {φ₁ φ₂ : FTy} {d : DotDims ⟨2, ![a, K]⟩ ⟨2, ![N, K]⟩ ⟨2, ![a, N]⟩} (hd : RowsDot d)
    (prec : Option ContractPrecision) (sched : HostSchedule) (x : FVec Ideal ⟨2, ![a, K]⟩ φ₁)
    (w : FVec Ideal ⟨2, ![N, K]⟩ φ₂) (i : (⟨2, ![a, N]⟩ : Shape).Idx) :
    FloatOps.dotGeneral d prec sched x w i = prodRowT x w (i 0) (i 1) :=
  (Ideal.dotGeneral_apply d prec sched x w i).trans (sum_contr_eq_prodRowT hd x w i)

end Cert.DenseRows

end
-- ==== Proof.Spec.lean ====
/-
  What the two-hop graph classifier computes, as plain functions of matrices of extended reals.

  For an adjacency matrix `A : [n, n]`, features `x : [n, f]`, a classifier `W : [cl, f]` stored by rows and a bias
  `b : [cl]`: the features are propagated twice, `h = A · (A · x)`; row `r` of the logits is `h(r, ·) · Wᵀ + b`; and the
  result is the log-softmax of every row of logits: the entry minus the row's maximum, minus the logarithm of the sum
  over the row of the exponentials of those differences. The row maximum is the fold of `max` over the row starting
  from `-∞`, written as the word both programs write.

  Everything is stated entry by entry, at row `r` and column `q`, so that it reads the same on a block of rows and on
  the whole matrix.
-/
import Mathlib.Data.Finset.Fold
import Idealize.ShloMosaic.Lib.ValueIdx
import Idealize.ShloMosaic.PureOps.Ideal.Laws
import proofs.«148998_g4148938408473_cont_8to1_b_702_11_alg».proof.Proof.LibRowsDot

noncomputable section

namespace Cert.Sgc

open Idealize.ShloMosaic Idealize.ShloMosaic.ValueIdx
open Cert.DenseLayer (Mat prodRow)
open Cert.DenseRows (prodRowT)

/-- A vector of `n` extended reals, indexed as the arrays are. -/
abbrev Row (n : ℕ) : Type := (⟨1, ![n]⟩ : Shape).Idx → EReal

variable {n f cl N : ℕ}

/-- One propagation step: the adjacency matrix times the features, `(A · h)(r, q) = ∑ₖ A(r, k) · h(k, q)`. -/
def hop (A : Mat n n) (h : Mat n f) : Mat n f := fun i => prodRow A h (i 0) (i 1)

theorem hop_apply (A : Mat n n) (h : Mat n f) (r : Fin n) (q : Fin f) : hop A h (ix2 r q) = prodRow A h r q := rfl

/-- Row `r` of the logits: the twice-propagated features of node `r` against every row of `W`, plus the bias. -/
def logitsRow (A : Mat n n) (x : Mat n f) (W : Mat cl f) (b : Row cl) (r : Fin n) : Fin cl → EReal :=
  fun q => prodRowT (hop A (hop A x)) W r q + b (ix1 q)

/-- The maximum of a row, taken from `-∞` (the word a program writes). -/
def top (z : Fin N → EReal) : EReal := Finset.univ.fold max (Ideal.ofBits .f32 0xFF800000#32) z

/-- The fold of `max` from a starting value is at least that value, so one more `max` against it changes nothing. -/
theorem max_start_top (z : Fin N → EReal) : max (Ideal.ofBits .f32 0xFF800000#32) (top z) = top z :=
  max_eq_right ((Finset.le_fold_max _).mpr (Or.inl le_rfl))

/-- The log-softmax of a row at column `q`. -/
def logSoftmaxRow (z : Fin N → EReal) (q : Fin N) : EReal :=
  (z q - top z) - Ideal.log (∑ j : Fin N, Ideal.exp (z j - top z))

/-- The classifier's output: the log-softmax of every row of logits. -/
def G (A : Mat n n) (x : Mat n f) (W : Mat cl f) (b : Row cl) : Mat n cl :=
  fun i => logSoftmaxRow (logitsRow A x W b (i 0)) (i 1)

theorem G_apply (A : Mat n n) (x : Mat n f) (W : Mat cl f) (b : Row cl) (r : Fin n) (q : Fin cl) :
    G A x W b (ix2 r q) = logSoftmaxRow (logitsRow A x W b r) q := rfl

end Cert.Sgc

end
-- ==== Proof.LibPlainDot.lean ====
/-
  Dimension numbers of a plain matrix product, recognised from their axis lists.

  A contraction's dimension numbers name, for each operand, which axes are batch axes, which are carried to the
  result and which are summed over. For a product `[a, K] × [K, N] → [a, N]` with no batch axis, the left operand's
  second axis summed against the right operand's first, and the two remaining axes carried in order, the left operand
  is read at `(row, k)` and the right at `(k, column)`: the record is a `PlainDot`, so that the product at an index is
  the row-times-column sum `prodRow`. The lemma is generic in the extents and takes the six axis lists as equations,
  which hold by `rfl` of any record written with those lists.
-/
import Idealize.ShloMosaic.PureOps.Dims
import proofs.«148998_g4148938408473_cont_8to1_b_702_11_alg».proof.Proof.LibDenseLayer

noncomputable section

namespace Cert.DenseLayer

open Idealize.ShloMosaic Idealize.ShloMosaic.ValueIdx

variable {a K N : ℕ}

/-- Two positions of one index that are equal as numbers hold the same coordinate. -/
theorem coord_val_congr {s : Shape} (i : s.Idx) (p q : ℕ) (hp : p < s.rank) (hq : q < s.rank) (h : p = q) :
    (i ⟨p, hp⟩).val = (i ⟨q, hq⟩).val := by subst h; rfl

/-- Dimension numbers with no batch axis that sum the left operand's axis 1 against the right operand's axis 0 and
    carry the left operand's axis 0 and then the right operand's axis 1 are those of a plain product. -/
theorem plainDot_of_axes (d : DotDims ⟨2, ![a, K]⟩ ⟨2, ![K, N]⟩ ⟨2, ![a, N]⟩)
    (hlc : d.lhsContracting = [1]) (hrc : d.rhsContracting = [0])
    (hln : d.lhsNonContracting = [0]) (hrn : d.rhsNonContracting = [1])
    (hlb : d.lhsBatch = []) (hrb : d.rhsBatch = []) : PlainDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => d.rhsIdx_val_of_single hrc i q
  rhs1 := fun i q => by
    have hb : (1 : Fin (⟨2, ![K, N]⟩ : Shape).rank) ∉ d.rhsBatch := by rw [hrb]; exact List.not_mem_nil
    have hn : (1 : Fin (⟨2, ![K, N]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])

end Cert.DenseLayer

end
-- ==== Proof.LibRowsDims.lean ====
/-
  Products with the rows of a matrix, `x · wᵀ`, recognised from a contraction's axis lists, and a vector program's
  spelling of one.

  For a product `[a, K] × [N, K] → [a, N]` with no batch axis, the second axis of both operands summed, and the two
  first axes carried in order, the left operand is read at `(row, k)` and the right at `(column, k)`: the record is a
  `RowsDot` (`rowsDot_of_axes`, generic in the extents; the six axis lists are equations that hold by `rfl` of any
  record written with those lists). Then a vector program's matrix product of this kind into the zero accumulator,
  at the ideal values, is `prodRowT` entry by entry, whatever the operands' float formats (`matmul_zero_rows_apply`).
-/
import Idealize.ShloMosaic.PureOps.Dims
import proofs.«148998_g4148938408473_cont_8to1_b_702_11_alg».proof.Proof.LibRowsDot
import proofs.«148998_g4148938408473_cont_8to1_b_702_11_alg».proof.Proof.LibPlainDot

noncomputable section

namespace Cert.DenseRows

open Idealize.ShloMosaic Idealize.ShloMosaic.ValueIdx
open Cert.DenseLayer (Mat coord_val_congr)

variable {a K N : ℕ}

/-- Dimension numbers with no batch axis that sum axis 1 of both operands and carry the left operand's axis 0 and
    then the right operand's axis 0 are those of a product with the rows of the right operand. -/
theorem rowsDot_of_axes (d : DotDims ⟨2, ![a, K]⟩ ⟨2, ![N, K]⟩ ⟨2, ![a, N]⟩)
    (hlc : d.lhsContracting = [1]) (hrc : d.rhsContracting = [1])
    (hln : d.lhsNonContracting = [0]) (hrn : d.rhsNonContracting = [0])
    (hlb : d.lhsBatch = []) (hrb : d.rhsBatch = []) : RowsDot d where
  rank := by rw [d.rank_contr, hlc]; rfl
  size := by
    have h := d.size_contr 0 (by rw [hlc]; exact Nat.one_pos)
    simp only [hlc, List.getElem_cons_zero] at h
    exact h
  lhs0 := fun i q => by
    have hb : (0 : Fin (⟨2, ![a, K]⟩ : Shape).rank) ∉ d.lhsBatch := by rw [hlb]; exact List.not_mem_nil
    have hn : (0 : Fin (⟨2, ![a, K]⟩ : Shape).rank) ∈ d.lhsNonContracting := by rw [hln]; exact List.mem_singleton.mpr rfl
    unfold DotDims.lhsIdx
    rw [dif_neg hb, dif_pos hn]
    simp only [Fin.val_cast]
    exact coord_val_congr i _ _ _ _ (by simp [hlb, hln])
  lhs1 := fun i q => d.lhsIdx_val_of_single hlc i q
  rhs0 := fun i q => by
    have hb : (0 : Fin (⟨2, ![N, K]⟩ : Shape).rank) ∉ d.rhsBatch := by rw [hrb]; exact List.not_mem_nil
    have hn : (0 : Fin (⟨2, ![N, K]⟩ : Shape).rank) ∈ d.rhsNonContracting := by rw [hrn]; exact List.mem_singleton.mpr rfl
    unfold DotDims.rhsIdx
    rw [dif_neg hb, dif_pos hn]
    simp only [Fin.val_cast]
    exact coord_val_congr i _ _ _ _ (by simp [hlb, hln, hrn])
  rhs1 := fun i q => d.rhsIdx_val_of_single hrc i q

/-- A vector program's matrix product along the second axis of both operands into the zero accumulator, at the
    ideal values, is `prodRowT` entry by entry. -/
theorem matmul_zero_rows_apply {φ₁ φ₂ : FTy} {d : DotDims ⟨2, ![a, K]⟩ ⟨2, ![N, K]⟩ ⟨2, ![a, N]⟩} (hd : RowsDot d)
    (prec : Option ContractPrecision) (x : FVec Ideal ⟨2, ![a, K]⟩ φ₁) (w : FVec Ideal ⟨2, ![N, K]⟩ φ₂)
    (i : (⟨2, ![a, N]⟩ : Shape).Idx) :
    FloatOps.matmul d prec x w (constant ⟨2, ![a, N]⟩ .f32 0x00000000#32) i = prodRowT x w (i 0) (i 1) :=
  (Ideal.matmul_constant_zero_apply d prec x w i).trans (sum_contr_eq_prodRowT hd x w i)

end Cert.DenseRows

end
-- ==== Proof.PayValue.lean ====
/-
  What the kernel's stored values are at the ideal values, entry by entry.
-/
import proofs.«148998_g4148938408473_cont_8to1_b_702_11_alg».proof.Proof.Gen.KernelIdeal.Skeleton
import proofs.«148998_g4148938408473_cont_8to1_b_702_11_alg».proof.Proof.Spec
import proofs.«148998_g4148938408473_cont_8to1_b_702_11_alg».proof.Proof.LibRowsDims

noncomputable section

namespace Cert.KernelIdeal.PayValue

open Idealize.ShloMosaic Idealize.ShloMosaic.ValueIdx
open Cert.KernelIdeal Cert.KernelIdeal.Gen
open Cert.DenseLayer (Mat prodRow)
open Cert.DenseRows (prodRowT)

/-! ## A vector program's row log-softmax read at an index -/

section VectorLogSoftmax

variable {a b : ℕ} (z : FVec Ideal ⟨2, ![a, b]⟩ .f32)
  (hr : (⟨2, ![a, b]⟩ : Shape).Reduces [1] ⟨1, ![a]⟩) (hc : (⟨1, ![a]⟩ : Shape).ShapeCasts ⟨2, ![a, 1]⟩)
  (hb : (⟨2, ![a, 1]⟩ : Shape).Broadcasts ⟨2, ![a, b]⟩) (hφ : FKind.Formats .f32)
  (hmax : (0xFF800000#32 : BitVec 32) = FKind.maximumf.neutral .f32 hφ)
  (hadd : (0x00000000#32 : BitVec 32) = FKind.add.neutral .f32 hφ)

/-- The row maxima of `z`, each the fold of `max` from `-∞` over its row, set as a column and laid over the `b`
    columns. -/
def rowMaxOver : FVec Ideal ⟨2, ![a, b]⟩ .f32 :=
  broadcastTo ⟨2, ![a, b]⟩
    (shapeCast ⟨2, ![a, 1]⟩ (multiReduction .maximumf [1] ⟨1, ![a]⟩ z 0xFF800000#32 hr hφ hmax) hc) hb

/-- At `(p, q)` it is the maximum of row `p`, whatever the column. -/
theorem rowMaxOver_apply (p : Fin a) (q : Fin b) :
    rowMaxOver z hr hc hb hφ hmax (ix2 p q) = Cert.Sgc.top (fun k => z (ix2 p k)) :=
  (Cert.ColumnLayout.column_over_columns_apply _ hc hb p q).trans
    (Cert.DenseLayer.multiReduction_max_rows_apply z _ hr hφ hmax p)

/-- The whole row log-softmax of a vector program: the entries minus the laid-out row maxima, and from those
    differences the logarithm of their exponentials' row sums, taken on the column and laid out the same way. Entry
    by entry it is `logSoftmaxRow` of the row. -/
theorem vector_logSoftmax_apply (p : Fin a) (q : Fin b) :
    subf (subf z (rowMaxOver z hr hc hb hφ hmax))
        (broadcastTo ⟨2, ![a, b]⟩
          (log (shapeCast ⟨2, ![a, 1]⟩
            (multiReduction .add [1] ⟨1, ![a]⟩ (exp (subf z (rowMaxOver z hr hc hb hφ hmax))) 0x00000000#32 hr hφ hadd)
            hc)) hb)
        (ix2 p q)
      = Cert.Sgc.logSoftmaxRow (fun k => z (ix2 p k)) q := by
  have hD : ∀ k : Fin b, subf z (rowMaxOver z hr hc hb hφ hmax) (ix2 p k)
      = z (ix2 p k) - Cert.Sgc.top (fun k => z (ix2 p k)) := fun k => by
    show z (ix2 p k) - rowMaxOver z hr hc hb hφ hmax (ix2 p k) = _
    rw [rowMaxOver_apply]
  have hE : ∀ k : Fin b, exp (subf z (rowMaxOver z hr hc hb hφ hmax)) (ix2 p k)
      = Ideal.exp (z (ix2 p k) - Cert.Sgc.top (fun k => z (ix2 p k))) := fun k => by
    show Ideal.exp (subf z (rowMaxOver z hr hc hb hφ hmax) (ix2 p k)) = _
    rw [hD k]
  show subf z (rowMaxOver z hr hc hb hφ hmax) (ix2 p q)
      - broadcastTo ⟨2, ![a, b]⟩
          (log (shapeCast ⟨2, ![a, 1]⟩
            (multiReduction .add [1] ⟨1, ![a]⟩ (exp (subf z (rowMaxOver z hr hc hb hφ hmax))) 0x00000000#32 hr hφ hadd)
            hc)) hb (ix2 p q) = _
  rw [hD q, Cert.ColumnLayout.broadcastTo_a1_ab_apply]
  show _ - Ideal.log (shapeCast ⟨2, ![a, 1]⟩
      (multiReduction .add [1] ⟨1, ![a]⟩ (exp (subf z (rowMaxOver z hr hc hb hφ hmax))) 0x00000000#32 hr hφ hadd)
      hc (ix2 p (0 : Fin 1))) = _
  rw [Cert.ColumnLayout.shapeCast_a_a1_apply, Cert.ColumnLayout.multiReduction_add_rows_apply]
  unfold Cert.Sgc.logSoftmaxRow
  exact congrArg (fun s => _ - Ideal.log s) (Finset.sum_congr rfl fun k _ => hE k)

end VectorLogSoftmax

variable [Cert.KernelIdeal.Facts]

/-! ## The two contractions' dimension numbers -/

/-- The block-times-features contraction sums the left operand's second axis against the right operand's first. -/
theorem plain_dims : Cert.DenseLayer.PlainDot (a := 200) (K := 10000) (N := 128)
    dot_S200x10000_S10000x128_S200x128_1_0_0_1_n_n :=
  Cert.DenseLayer.plainDot_of_axes _ rfl rfl rfl rfl rfl rfl

/-- The classifier contraction sums the second axis of both operands. -/
theorem rows_dims : Cert.DenseRows.RowsDot (a := 200) (K := 128) (N := 128)
    dot_S200x128_S128x128_S200x128_1_1_0_0_n_n :=
  Cert.DenseRows.rowsDot_of_axes _ rfl rfl rfl rfl rfl rfl

/-! ## The payloads -/

/-- A change of float format is the identity on the extended reals. -/
theorem pay1_eq (v0 : Vec Ideal S200x10000 .f32) : k0_pay1 (F := Ideal) v0 = v0 :=
  funext fun i => Ideal.truncf_def (φ := .f32) (v0 i) .bf16 Facts₀.bitsLt_bf16_f32

theorem pay2_eq (v2 : Vec Ideal S200x10000 .f32) : k0_pay2 (F := Ideal) v2 = v2 :=
  funext fun i => Ideal.truncf_def (φ := .f32) (v2 i) .bf16 Facts₀.bitsLt_bf16_f32

/-- The stored copy of the features is the features. -/
theorem pay3_eq (v15 : Vec Ideal S10000x128 .f32) : k0_pay3 (F := Ideal) v15 = v15 :=
  (shapeCast_self _ Facts₀.shapeCasts_S10000x128_S10000x128).trans
    (funext fun i => Ideal.truncf_def (φ := .f32) (v15 i) .bf16 Facts₀.bitsLt_bf16_f32)

/-- A block of 200 rows of the adjacency matrix times the stored features: row `p`, column `q`. -/
theorem pay4_apply (a : Vec Ideal S200x10000 .f32) (xb : Vec Ideal S10000x128 .bf16) (p : Fin 200) (q : Fin 128) :
    k0_pay4 (F := Ideal) a xb (ix2 p q) = prodRow (a : Mat 200 10000) (xb : Mat 10000 128) p q :=
  (congrFun (shapeCast_self _ Facts₀.shapeCasts_S200x128_S200x128) (ix2 p q)).trans
    (Cert.DenseLayer.matmul_zero_apply (φ₂ := .bf16) plain_dims none (k0_pay1 (F := Ideal) a) xb (ix2 p q))

theorem pay5_apply (a : Vec Ideal S200x10000 .f32) (xb : Vec Ideal S10000x128 .bf16) (p : Fin 200) (q : Fin 128) :
    k0_pay5 (F := Ideal) a xb (ix2 p q) = prodRow (a : Mat 200 10000) (xb : Mat 10000 128) p q :=
  (congrFun (shapeCast_self _ Facts₀.shapeCasts_S200x128_S200x128) (ix2 p q)).trans
    (Cert.DenseLayer.matmul_zero_apply (φ₂ := .bf16) plain_dims none (k0_pay2 (F := Ideal) a) xb (ix2 p q))

/-- The logits of a block of 200 rows as the body spells them: the block times the once-propagated features, that
    product against the rows of the classifier, plus the bias row laid over the 200 rows. -/
def logits (a : FVec Ideal S200x10000 .bf16) (y : FVec Ideal S10000x128 .bf16) (W : FVec Ideal S128x128 .f32)
    (bb : FVec Ideal S1x128 .f32) : FVec Ideal S200x128 .f32 :=
  addf
    (matmul dot_S200x128_S128x128_S200x128_1_1_0_0_n_n none
      (matmul dot_S200x10000_S10000x128_S200x128_1_0_0_1_n_n none a y (constant (F := Ideal) S200x128 .f32 0x00000000#32))
      W (constant (F := Ideal) S200x128 .f32 0x00000000#32))
    (broadcastTo S200x128 (shapeCast S1x128 bb Facts₀.shapeCasts_S1x128_S1x128) Facts₀.broadcasts_S1x128_S200x128)

/-- Entry `(p, k)` of the logits: row `p` of the second hop against row `k` of the classifier, plus the bias at `k`. -/
theorem logits_apply (a : FVec Ideal S200x10000 .bf16) (y : FVec Ideal S10000x128 .bf16) (W : FVec Ideal S128x128 .f32)
    (bb : FVec Ideal S1x128 .f32) (p : Fin 200) (k : Fin 128) :
    logits a y W bb (ix2 p k)
      = prodRowT (fun i => prodRow (a : Mat 200 10000) (y : Mat 10000 128) (i 0) (i 1) : Mat 200 128) (W : Mat 128 128) p k
          + bb (ix2 (0 : Fin 1) k) := by
  have h1 : matmul dot_S200x128_S128x128_S200x128_1_1_0_0_n_n none
        (matmul dot_S200x10000_S10000x128_S200x128_1_0_0_1_n_n none a y (constant (F := Ideal) S200x128 .f32 0x00000000#32))
        W (constant (F := Ideal) S200x128 .f32 0x00000000#32) (ix2 p k)
      = prodRowT (fun i => prodRow (a : Mat 200 10000) (y : Mat 10000 128) (i 0) (i 1) : Mat 200 128) (W : Mat 128 128) p k :=
    (Cert.DenseRows.matmul_zero_rows_apply rows_dims none _ W (ix2 p k)).trans
      (congrArg (fun m : Mat 200 128 => prodRowT m (W : Mat 128 128) p k)
        (funext fun i => Cert.DenseLayer.matmul_zero_apply plain_dims none a y i))
  have h2 : broadcastTo S200x128 (shapeCast S1x128 bb Facts₀.shapeCasts_S1x128_S1x128) Facts₀.broadcasts_S1x128_S200x128 (ix2 p k)
      = bb (ix2 (0 : Fin 1) k) :=
    (broadcastTo_1b_ab_apply _ Facts₀.broadcasts_S1x128_S200x128 p k).trans
      (congrFun (shapeCast_self bb Facts₀.shapeCasts_S1x128_S1x128) (ix2 (0 : Fin 1) k))
  exact congrArg₂ (· + ·) h1 h2

/-- The second hop on a block of 200 rows, the classifier, the bias and the row's log-softmax: row `p`, column `q`. -/
theorem pay6_apply (a : FVec Ideal S200x10000 .bf16) (y : Vec Ideal S10000x128 .bf16) (W : Vec Ideal S128x128 .f32)
    (bb : Vec Ideal S1x128 .f32) (p : Fin 200) (q : Fin 128) :
    k0_pay6 (F := Ideal) a y W bb (ix2 p q)
      = Cert.Sgc.logSoftmaxRow
          (fun j : Fin 128 => prodRowT (fun i => prodRow (a : Mat 200 10000) (y : Mat 10000 128) (i 0) (i 1) : Mat 200 128) (W : Mat 128 128) p j
              + bb (ix2 (0 : Fin 1) j)) q :=
  (vector_logSoftmax_apply (a := 200) (b := 128) (logits a y W bb) Facts₀.reduces_S200x128_S200 Facts₀.shapeCasts_S200_S200x1
      Facts₀.broadcasts_S200x1_S200x128 (.inl rfl) rfl rfl p q).trans
    (congrArg (fun f : Fin 128 → EReal => Cert.Sgc.logSoftmaxRow f q) (funext fun k => logits_apply a y W bb p k))

theorem pay7_apply (a : FVec Ideal S200x10000 .bf16) (y : Vec Ideal S10000x128 .bf16) (W : Vec Ideal S128x128 .f32)
    (bb : Vec Ideal S1x128 .f32) (p : Fin 200) (q : Fin 128) :
    k0_pay7 (F := Ideal) a y W bb (ix2 p q)
      = Cert.Sgc.logSoftmaxRow
          (fun j : Fin 128 => prodRowT (fun i => prodRow (a : Mat 200 10000) (y : Mat 10000 128) (i 0) (i 1) : Mat 200 128) (W : Mat 128 128) p j
              + bb (ix2 (0 : Fin 1) j)) q :=
  (vector_logSoftmax_apply (a := 200) (b := 128) (logits a y W bb) Facts₀.reduces_S200x128_S200 Facts₀.shapeCasts_S200_S200x1
      Facts₀.broadcasts_S200x1_S200x128 (.inl rfl) rfl rfl p q).trans
    (congrArg (fun f : Fin 128 → EReal => Cert.Sgc.logSoftmaxRow f q) (funext fun k => logits_apply a y W bb p k))

end Cert.KernelIdeal.PayValue

end
-- ==== Proof.KI_Value.lean ====
/-
  What the kernel's output array holds after the run, at the ideal values: the log-softmax of the rows of
  `A · (A · x) · Wᵀ + b`.

  Each window's block at a point is read off its array: windows 0 and 1 are rows `400 · (t mod 25)` onward and
  `400 · (t mod 25) + 200` onward of `A`; the features, the classifier and the bias row are whole. So the first hop the
  second scratch holds is `A · x` row by row, the block a point of phase 1 writes back is 400 rows of the result, and
  the 25 blocks written back tile the output.
-/
import proofs.«148998_g4148938408473_cont_8to1_b_702_11_alg».proof.Proof.KI_Data
import proofs.«148998_g4148938408473_cont_8to1_b_702_11_alg».proof.Proof.PayValue
import Idealize.ShloMosaic.Lib.ValueLayout
import Idealize.ShloMosaic.Lib.StableHlo.Run

set_option maxRecDepth 16384

noncomputable section

namespace Cert.KernelIdeal.HandValue

open Idealize.ShloMosaic Idealize.ShloMosaic.TcCoe Idealize.ShloMosaic.ValueIdx
open Idealize.SL.Sem
open Idealize.ShloMosaic.Pipeline (Dat Cfg Window)
open Cert.KernelIdeal Cert.KernelIdeal.Gen Cert.KernelIdeal.Hand Cert.KernelIdeal.PayValue
open Cert.DenseLayer (Mat prodRow prodRow_congr)
open Cert.DenseRows (prodRowT prodRowT_congr)

variable (m : (ℓ : Loc nD τ sig) → Buf (Elt Ideal) ℓ)

/-! ## The windows' block indices, decided over the grid -/

theorem idx_0 : ∀ t : Fin cfg0.N, win0_0.index t (0 : Fin 2) = 2 * (t.val % 25) ∧ win0_0.index t (1 : Fin 2) = 0 :=
  (by decide +kernel : ∀ t : Fin grid0.N, win0_0.index t (0 : Fin 2) = 2 * (t.val % 25) ∧ win0_0.index t (1 : Fin 2) = 0)
theorem idx_1 : ∀ t : Fin cfg0.N, win0_1.index t (0 : Fin 2) = 2 * (t.val % 25) + 1 ∧ win0_1.index t (1 : Fin 2) = 0 :=
  (by decide +kernel : ∀ t : Fin grid0.N, win0_1.index t (0 : Fin 2) = 2 * (t.val % 25) + 1 ∧ win0_1.index t (1 : Fin 2) = 0)
theorem idx_2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
theorem idx_3 : ∀ t : Fin cfg0.N, win0_3.index t (0 : Fin 2) = 0 ∧ win0_3.index t (1 : Fin 2) = 0 :=
  (by decide +kernel : ∀ t : Fin grid0.N, win0_3.index t (0 : Fin 2) = 0 ∧ win0_3.index t (1 : Fin 2) = 0)
theorem idx_4 : ∀ t : Fin cfg0.N, win0_4.index t (0 : Fin 2) = 0 ∧ win0_4.index t (1 : Fin 2) = 0 :=
  (by decide +kernel : ∀ t : Fin grid0.N, win0_4.index t (0 : Fin 2) = 0 ∧ win0_4.index t (1 : Fin 2) = 0)
theorem idx_5 : ∀ t : Fin cfg0.N, 25 ≤ t.val → win0_5.index t (0 : Fin 2) = t.val - 25 ∧ win0_5.index t (1 : Fin 2) = 0 :=
  (by decide +kernel : ∀ t : Fin grid0.N, 25 ≤ t.val → win0_5.index t (0 : Fin 2) = t.val - 25 ∧ win0_5.index t (1 : Fin 2) = 0)

/-! ## Each window's block read off its array -/

/-- Window 0's block at point `t` is rows `400 · (t mod 25)` onward of `A`. -/
theorem iblk_0_apply (c : Dev nD) (t : Fin cfg0.N) (p : Fin 200) (k : Fin 10000) :
    iblk m c 0 t (ix2 p k)
      = V m c main_arg1 (ix2 (⟨400 * (t.val % 25) + p.val, by have := Nat.mod_lt t.val (show 0 < 25 by omega); omega⟩ : Fin 10000) k) := by
  obtain ⟨e0, e1⟩ := idx_0 t
  show V m c main_arg1 (((cfg0.win 0).blk t).view.emb (ix2 p k)) = V m c main_arg1 _
  refine congrArg (V m c main_arg1) ?_
  funext a; apply Fin.ext
  match a with
  | ⟨0, _⟩ => show win0_0.index t (0 : Fin 2) * 200 + 1 * p.val = 400 * (t.val % 25) + p.val; omega
  | ⟨1, _⟩ => show win0_0.index t (1 : Fin 2) * 10000 + 1 * k.val = k.val; omega

/-- Window 1's block at point `t` is rows `400 · (t mod 25) + 200` onward of `A`. -/
theorem iblk_1_apply (c : Dev nD) (t : Fin cfg0.N) (p : Fin 200) (k : Fin 10000) :
    iblk m c 1 t (ix2 p k)
      = V m c main_arg1 (ix2 (⟨400 * (t.val % 25) + 200 + p.val, by have := Nat.mod_lt t.val (show 0 < 25 by omega); omega⟩ : Fin 10000) k) := by
  obtain ⟨e0, e1⟩ := idx_1 t
  show V m c main_arg1 (((cfg0.win 1).blk t).view.emb (ix2 p k)) = V m c main_arg1 _
  refine congrArg (V m c main_arg1) ?_
  funext a; apply Fin.ext
  match a with
  | ⟨0, _⟩ => show win0_1.index t (0 : Fin 2) * 200 + 1 * p.val = 400 * (t.val % 25) + 200 + p.val; omega
  | ⟨1, _⟩ => show win0_1.index t (1 : Fin 2) * 10000 + 1 * k.val = k.val; omega

/-- The features' window is the whole array, -/
theorem iblk_2_apply (c : Dev nD) (t : Fin cfg0.N) (k : Fin 10000) (q : Fin 128) :
    iblk m c 2 t (ix2 k q) = V m c main_arg0 (ix2 k q) := by
  obtain ⟨e0, e1⟩ := idx_2 t
  show V m c main_arg0 (((cfg0.win 2).blk t).view.emb (ix2 k q)) = V m c main_arg0 _
  refine congrArg (V m c main_arg0) ?_
  funext a; apply Fin.ext
  match a with
  | ⟨0, _⟩ => show win0_2.index t (0 : Fin 2) * 10000 + 1 * k.val = k.val; omega
  | ⟨1, _⟩ => show win0_2.index t (1 : Fin 2) * 128 + 1 * q.val = q.val; omega

/-- so is the classifier's, -/
theorem iblk_3_apply (c : Dev nD) (t : Fin cfg0.N) (j : Fin 128) (k : Fin 128) :
    iblk m c 3 t (ix2 j k) = V m c main_arg2 (ix2 j k) := by
  obtain ⟨e0, e1⟩ := idx_3 t
  show V m c main_arg2 (((cfg0.win 3).blk t).view.emb (ix2 j k)) = V m c main_arg2 _
  refine congrArg (V m c main_arg2) ?_
  funext a; apply Fin.ext
  match a with
  | ⟨0, _⟩ => show win0_3.index t (0 : Fin 2) * 128 + 1 * j.val = j.val; omega
  | ⟨1, _⟩ => show win0_3.index t (1 : Fin 2) * 128 + 1 * k.val = k.val; omega

/-- The bias row as the region finds it is the bias vector laid out as a row. -/
theorem V_main_v0 (c : Dev nD) :
    (V m c main_v0 : S1x128.Idx → EReal)
      = shapeCast S1x128 (m ((c.tc : Thread nD τ).loc main_arg3)) Facts₀.shapeCasts_S128_S1x128 := by
  dsimp only [V, hostOps0]; after_results; rfl

/-- and the bias row's, which @main lays out from the bias vector before the region. -/
theorem iblk_4_apply (c : Dev nD) (t : Fin cfg0.N) (j : Fin 128) :
    iblk m c 4 t (ix2 (0 : Fin 1) j) = m ((c.tc : Thread nD τ).loc main_arg3) (ix1 j) := by
  obtain ⟨e0, e1⟩ := idx_4 t
  have h1 : iblk m c 4 t (ix2 (0 : Fin 1) j) = V m c main_v0 (ix2 (0 : Fin 1) j) := by
    show V m c main_v0 (((cfg0.win 4).blk t).view.emb (ix2 (0 : Fin 1) j)) = V m c main_v0 _
    refine congrArg (V m c main_v0) ?_
    funext a; apply Fin.ext
    match a with
    | ⟨0, _⟩ => show win0_4.index t (0 : Fin 2) * 1 + 1 * (0 : Fin 1).val = (0 : Fin 1).val; omega
    | ⟨1, _⟩ => show win0_4.index t (1 : Fin 2) * 128 + 1 * j.val = j.val; omega
  refine h1.trans ?_
  refine (congrFun (V_main_v0 m c) (ix2 (0 : Fin 1) j)).trans ?_
  exact shapeCast_a_1a_apply _ _ (0 : Fin 1) j

/-! ## The first hop in scratch is `A · x` -/

/-- The features' copy kept in scratch is the features. -/
theorem xcopy_eq (c : Dev nD) : (xcopy m c : Mat 10000 128) = (V m c main_arg0 : Mat 10000 128) := by
  unfold xcopy
  refine (pay3_eq _).trans ?_
  funext i
  obtain ⟨k, q, rfl⟩ : ∃ (k : Fin 10000) (q : Fin 128), i = ix2 k q := ⟨i 0, i 1, eq_ix2 i⟩
  exact iblk_2_apply m c t0 k q

/-- The 200 rows a point of phase 0 computes from the first block of `A` there are rows `400 · (s mod 25)` onward of
    `A · x`, -/
theorem yblockA_apply (c : Dev nD) (s : Fin cfg0.N) (p : Fin 200) (q : Fin 128) :
    yblockA m c s (ix2 p q)
      = prodRow (V m c main_arg1 : Mat 10000 10000) (V m c main_arg0 : Mat 10000 128)
          (⟨400 * (s.val % 25) + p.val, by have := Nat.mod_lt s.val (show 0 < 25 by omega); omega⟩ : Fin 10000) q := by
  unfold yblockA
  refine (pay4_apply _ _ p q).trans ?_
  refine (congrArg (fun w : Mat 10000 128 => prodRow (iblk m c 0 s : Mat 200 10000) w p q) (xcopy_eq m c)).trans ?_
  exact congrFun (prodRow_congr (iblk m c 0 s : Mat 200 10000) (V m c main_arg1 : Mat 10000 10000)
    (V m c main_arg0 : Mat 10000 128) p _ (fun k => iblk_0_apply m c s p k)) q

/-- and the 200 it computes from the second are rows `400 · (s mod 25) + 200` onward. -/
theorem yblockB_apply (c : Dev nD) (s : Fin cfg0.N) (p : Fin 200) (q : Fin 128) :
    yblockB m c s (ix2 p q)
      = prodRow (V m c main_arg1 : Mat 10000 10000) (V m c main_arg0 : Mat 10000 128)
          (⟨400 * (s.val % 25) + 200 + p.val, by have := Nat.mod_lt s.val (show 0 < 25 by omega); omega⟩ : Fin 10000) q := by
  unfold yblockB
  refine (pay5_apply _ _ p q).trans ?_
  refine (congrArg (fun w : Mat 10000 128 => prodRow (iblk m c 1 s : Mat 200 10000) w p q) (xcopy_eq m c)).trans ?_
  exact congrFun (prodRow_congr (iblk m c 1 s : Mat 200 10000) (V m c main_arg1 : Mat 10000 10000)
    (V m c main_arg0 : Mat 10000 128) p _ (fun k => iblk_1_apply m c s p k)) q

/-- Row by row the first hop the kernel keeps in scratch is the adjacency matrix times the features. -/
theorem yrows_apply (c : Dev nD) (r : Fin 10000) (q : Fin 128) :
    yrows m c (ix2 r q)
      = prodRow (V m c main_arg1 : Mat 10000 10000) (V m c main_arg0 : Mat 10000 128) r q := by
  have hr : r.val < 10000 := r.isLt
  unfold yrows
  by_cases h : r.val % 400 < 200
  · refine (dif_pos h).trans ?_
    refine (yblockA_apply m c _ _ _).trans ?_
    exact congrArg₂ (prodRow (V m c main_arg1 : Mat 10000 10000) (V m c main_arg0 : Mat 10000 128))
      (Fin.ext (by show 400 * (r.val / 400 % 25) + r.val % 400 = r.val; omega)) (Fin.ext rfl)
  · refine (dif_neg h).trans ?_
    refine (yblockB_apply m c _ _ _).trans ?_
    exact congrArg₂ (prodRow (V m c main_arg1 : Mat 10000 10000) (V m c main_arg0 : Mat 10000 128))
      (Fin.ext (by show 400 * (r.val / 400 % 25) + 200 + (r.val % 400 - 200) = r.val; omega)) (Fin.ext rfl)

/-- So it is the first hop of the specification. -/
theorem yrows_eq_hop (c : Dev nD) :
    (yrows m c : Mat 10000 128) = Cert.Sgc.hop (V m c main_arg1 : Mat 10000 10000) (V m c main_arg0 : Mat 10000 128) := by
  funext y
  obtain ⟨r, q, rfl⟩ : ∃ (r : Fin 10000) (q : Fin 128), y = ix2 r q := ⟨y 0, y 1, eq_ix2 y⟩
  exact yrows_apply m c r q

/-! ## The output array after the run -/

/-- The classifier's output, of the arrays as the region finds them. -/
def Gout (c : Dev nD) : Buf (Elt Ideal) ((cfg0.win 5).arr.view.loc (c.tc : Thread nD τ)) :=
  Cert.Sgc.G (V m c main_arg1) (V m c main_arg0) (V m c main_arg2) (m ((c.tc : Thread nD τ).loc main_arg3))

/-- A row of logits as a point of phase 1 computes it, from a block of `A` whose row `p` is row `R` of `A`, the first
    hop in scratch, the classifier's block and the bias row's: row `R` of the specification's logits. -/
theorem logits_row (c : Dev nD) (t : Fin cfg0.N) (a : Mat 200 10000) (p : Fin 200) (R : Fin 10000)
    (ha : ∀ k, a (ix2 p k) = V m c main_arg1 (ix2 R k)) (j : Fin 128) :
    prodRowT (fun i => prodRow a (yrows m c : Mat 10000 128) (i 0) (i 1) : Mat 200 128) (iblk m c 3 t : Mat 128 128) p j
        + iblk m c 4 t (ix2 (0 : Fin 1) j)
      = Cert.Sgc.logitsRow (V m c main_arg1) (V m c main_arg0) (V m c main_arg2)
          (m ((c.tc : Thread nD τ).loc main_arg3)) R j := by
  refine congrArg₂ (· + ·) ?_ (iblk_4_apply m c t j)
  refine prodRowT_congr _ _ _ _ p R j j (fun k => ?_) (fun k => iblk_3_apply m c t j k)
  show prodRow a (yrows m c : Mat 10000 128) p k
      = prodRow (V m c main_arg1 : Mat 10000 10000)
          (Cert.Sgc.hop (V m c main_arg1 : Mat 10000 10000) (V m c main_arg0 : Mat 10000 128)) R k
  rw [yrows_eq_hop]
  exact congrFun (prodRow_congr a (V m c main_arg1 : Mat 10000 10000) _ p R ha) k

/-- The lower 200 rows a point of phase 1 stores are rows `400 · (t mod 25)` onward of the classifier's output, -/
theorem piece_lo (c : Dev nD) (t : Fin cfg0.N) (p : Fin 200) (q : Fin 128) :
    k0_pay6 (k0_pay1 (iblk m c 0 t)) (yrows m c) (iblk m c 3 t) (iblk m c 4 t) (ix2 p q)
      = Gout m c (ix2 (⟨400 * (t.val % 25) + p.val, by have := Nat.mod_lt t.val (show 0 < 25 by omega); omega⟩ : Fin 10000) q) := by
  refine (pay6_apply _ _ _ _ p q).trans ?_
  show _ = Cert.Sgc.logSoftmaxRow (Cert.Sgc.logitsRow (V m c main_arg1) (V m c main_arg0) (V m c main_arg2)
      (m ((c.tc : Thread nD τ).loc main_arg3)) ⟨400 * (t.val % 25) + p.val, _⟩) q
  refine congrArg (fun f : Fin 128 → EReal => Cert.Sgc.logSoftmaxRow f q) (funext fun j => ?_)
  exact logits_row m c t _ p _
    (fun k => (congrFun (pay1_eq (iblk m c 0 t)) (ix2 p k)).trans (iblk_0_apply m c t p k)) j

/-- and the upper 200 are rows `400 · (t mod 25) + 200` onward. -/
theorem piece_hi (c : Dev nD) (t : Fin cfg0.N) (p : Fin 200) (q : Fin 128) :
    k0_pay7 (k0_pay2 (iblk m c 1 t)) (yrows m c) (iblk m c 3 t) (iblk m c 4 t) (ix2 p q)
      = Gout m c (ix2 (⟨400 * (t.val % 25) + 200 + p.val, by have := Nat.mod_lt t.val (show 0 < 25 by omega); omega⟩ : Fin 10000) q) := by
  refine (pay7_apply _ _ _ _ p q).trans ?_
  show _ = Cert.Sgc.logSoftmaxRow (Cert.Sgc.logitsRow (V m c main_arg1) (V m c main_arg0) (V m c main_arg2)
      (m ((c.tc : Thread nD τ).loc main_arg3)) ⟨400 * (t.val % 25) + 200 + p.val, _⟩) q
  refine congrArg (fun f : Fin 128 → EReal => Cert.Sgc.logSoftmaxRow f q) (funext fun j => ?_)
  exact logits_row m c t _ p _
    (fun k => (congrFun (pay2_eq (iblk m c 1 t)) (ix2 p k)).trans (iblk_1_apply m c t p k)) j

/-- What a point of phase 1 writes back is its 400 rows of the classifier's output. -/
theorem flushed_eq (c : Dev nD) (t : Fin cfg0.N) (ht : 25 ≤ t.val) :
    (dats m 0 c).flushed 5 t = ((cfg0.win 5).blk t).view.read (Elt Ideal) (Gout m c) := by
  obtain ⟨e0, e1⟩ := idx_5 t ht
  have hN : t.val < 50 := lt_of_lt_of_eq t.isLt N_0
  show (cfg0.win 5).cut (grid0.coords t) ((dats m 0 c).after 5 t) = _
  rw [after_5]
  unfold outBlock
  funext y
  show View.canon (outPieces m c t) y = ((cfg0.win 5).blk t).view.read (Elt Ideal) (Gout m c) y
  refine View.canon_apply_of_pieces (((cfg0.win 5).blk t).view.read (Elt Ideal) (Gout m c)) (outPieces m c t) ?_ y
    (outPieces_cover m c t y)
  intro pc hpc x
  unfold outPieces at hpc
  rcases List.mem_cons.mp hpc with rfl | hpc
  · obtain ⟨p, q, rfl⟩ : ∃ (p : Fin 200) (q : Fin 128), x = ix2 p q := ⟨x 0, x 1, eq_ix2 x⟩
    refine (piece_hi m c t p q).trans ?_
    show Gout m c _ = Gout m c (((cfg0.win 5).blk t).view.emb
      ((Rect.unit (s := S400x128) ![200, 0] S200x128.size Facts₀.inb_S400x128_S200x128_200_0).emb (ix2 p q)))
    refine congrArg (Gout m c) ?_
    funext a; apply Fin.ext
    match a with
    | ⟨0, _⟩ => show 400 * (t.val % 25) + 200 + p.val = win0_5.index t (0 : Fin 2) * 400 + 1 * (200 + 1 * p.val); omega
    | ⟨1, _⟩ => show q.val = win0_5.index t (1 : Fin 2) * 128 + 1 * (0 + 1 * q.val); omega
  rcases List.mem_cons.mp hpc with rfl | hpc
  · obtain ⟨p, q, rfl⟩ : ∃ (p : Fin 200) (q : Fin 128), x = ix2 p q := ⟨x 0, x 1, eq_ix2 x⟩
    refine (piece_lo m c t p q).trans ?_
    show Gout m c _ = Gout m c (((cfg0.win 5).blk t).view.emb
      ((Rect.unit (s := S400x128) ![0, 0] S200x128.size Facts₀.inb_S400x128_S200x128_0_0).emb (ix2 p q)))
    refine congrArg (Gout m c) ?_
    funext a; apply Fin.ext
    match a with
    | ⟨0, _⟩ => show 400 * (t.val % 25) + p.val = win0_5.index t (0 : Fin 2) * 400 + 1 * (0 + 1 * p.val); omega
    | ⟨1, _⟩ => show q.val = win0_5.index t (1 : Fin 2) * 128 + 1 * (0 + 1 * q.val); omega
  nomatch hpc

/-- An index of the output is in point `t`'s block iff each coordinate is in the block's range on its axis. -/
theorem mem_blk_5 (t : Fin cfg0.N) (i : S10000x128.Idx) :
    i ∈ ((cfg0.win 5).blk t).view.set
      ↔ ∀ a : Fin 2, win0_5.index t a * S400x128.size a ≤ (i a).val ∧ (i a).val < win0_5.index t a * S400x128.size a + S400x128.size a := by
  show i ∈ ((View.whole main_v1).slice (win0_5.rect t)).set ↔ _
  rw [View.set_slice_whole, Rect.mem_set_unit]
  exact Iff.rfl

/-- Row `r` of the output is in the block of point `25 + r / 400`. -/
theorem cover_rows (i : S10000x128.Idx) :
    ∃ t : Fin cfg0.N, (cfg0.win 5).flush t = true ∧ i ∈ ((cfg0.win 5).blk t).view.set := by
  have hi0 : (i 0).val < 10000 := idx2_lt0 i
  have hi1 : (i 1).val < 128 := idx2_lt1 i
  obtain ⟨t, htv⟩ : ∃ t : Fin cfg0.N, t.val = 25 + (i 0).val / 400 :=
    ⟨⟨25 + (i 0).val / 400, by rw [show cfg0.N = 50 from N_0]; omega⟩, rfl⟩
  have ht : 25 ≤ t.val := by omega
  obtain ⟨e0, e1⟩ := idx_5 t ht
  refine ⟨t, flush_5 t ht, ?_⟩
  rw [mem_blk_5]
  intro a
  match a with
  | ⟨0, _⟩ => show win0_5.index t (0 : Fin 2) * 400 ≤ (i 0).val ∧ (i 0).val < win0_5.index t (0 : Fin 2) * 400 + 400; omega
  | ⟨1, _⟩ => show win0_5.index t (1 : Fin 2) * 128 ≤ (i 1).val ∧ (i 1).val < win0_5.index t (1 : Fin 2) * 128 + 128; omega

/-- The 25 blocks written back cover the output: row `r` is in the block of point `25 + r / 400`. -/
theorem cover (c : Dev nD) (i : ((cfg0.win 5).arr.view.loc (c.tc : Thread nD τ)).2.ty.Idx) :
    ∃ t : Fin cfg0.N, (cfg0.win 5).flush t = true ∧ i ∈ ((cfg0.win 5).blk t).view.set :=
  cover_rows i

/-- After the run the output array holds the log-softmax of the rows of `A · (A · x) · Wᵀ + b`, of the arguments as
    launched. -/
theorem out_eq (c : Dev nD) :
    (dats m 0 c).arrAt 5 cfg0.N
      = Cert.Sgc.G (m ((c.tc : Thread nD τ).loc main_arg1)) (m ((c.tc : Thread nD τ).loc main_arg0))
          (m ((c.tc : Thread nD τ).loc main_arg2)) (m ((c.tc : Thread nD τ).loc main_arg3)) := by
  refine ((dats m 0 c).arrAt_eq_of_cover 5 (Gout m c) (fun t hf => flushed_eq m c t ?_) (cover c)).trans ?_
  · by_contra h
    rw [noFlush_5 t (by omega)] at hf
    exact Bool.false_ne_true hf
  · unfold Gout
    rw [V_main_arg0, V_main_arg1, V_main_arg2]

end Cert.KernelIdeal.HandValue

end
-- ==== Proof.KI_ValueRun.lean ====
/-
  The idealized kernel's run with its result named: every weakly fair execution terminates with the output array at
  the log-softmax of the rows of `A · (A · x) · Wᵀ + b` of the arguments as launched, and the arguments unchanged.
-/
import proofs.«148998_g4148938408473_cont_8to1_b_702_11_alg».proof.Proof.KI_Launch
import proofs.«148998_g4148938408473_cont_8to1_b_702_11_alg».proof.Proof.KI_Value

noncomputable section

namespace Cert.KernelIdeal.HandValue

open Idealize.ShloMosaic Idealize.ShloMosaic.TcCoe Idealize.SL.Sem
open Cert.KernelIdeal Cert.KernelIdeal.Gen Cert.KernelIdeal.Hand

/-- The frame run read at the output array (the blocks written back tile it: `out_eq`) and at the four arguments. -/
theorem run_value (m : (ℓ : Loc nD τ sig) → Buf (Elt Ideal) ℓ) (ρ : Dev nD → PrngReg) :
    θ_run (defs (F := Ideal)) (onTc (τ := τ) (main (F := Ideal))) ⟨m, fun _ => 0, ρ⟩ (fun r => ∀ c : Dev nD,
      r.2.mem ((c.tc : Thread nD τ).loc main_v1)
          = Cert.Sgc.G (m ((c.tc : Thread nD τ).loc main_arg1)) (m ((c.tc : Thread nD τ).loc main_arg0))
              (m ((c.tc : Thread nD τ).loc main_arg2)) (m ((c.tc : Thread nD τ).loc main_arg3))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c => ⟨
      ((h c).1 5).trans (out_eq m c),
      ((h c).1 2).trans (((dats m 0 c).arrAt_in 2 rfl _).trans ((A_eq m c 2).trans (V_main_arg0 m c))),
      ((h c).1 0).trans (((dats m 0 c).arrAt_in 0 rfl _).trans ((A_eq m c 0).trans (V_main_arg1 m c))),
      ((h c).1 3).trans (((dats m 0 c).arrAt_in 3 rfl _).trans ((A_eq m c 3).trans (V_main_arg2 m c))),
      ((h c).2 main_arg3 (Pipeline.mem_restRefs_of main_arg3 (by decide) (by decide))).trans (V_main_arg3 m c)⟩)
    (run_main (F := Ideal) m ρ)

end Cert.KernelIdeal.HandValue

end
-- ==== Proof.RefValue.lean ====
/-
  The reference's result is the specification of the two-hop classifier, entry by entry.

  The reference program computes, for an adjacency matrix `A`, features `x`, a classifier `W` stored by rows and
  a bias `b`: two plain products `A · x` and `A · (A · x)`; the transpose of `W` and the plain product of the
  propagated features with it, which is the product with the rows of `W`; the bias laid over the rows and added;
  and then the log-softmax of every row, spelt as: the row's maximum folded from `-∞` and taken once more against
  `-∞`, laid over the columns and subtracted; the exponentials of the differences summed along the row from `0`;
  the logarithm of that sum laid over the columns and subtracted from the differences.

  Each stage is read at an entry `(r, q)` (or at a row `r`), over variables of the arrays' types; the last stage at
  `(r, q)` is then `logSoftmaxRow` of row `r` of the logits at column `q`, which is the specification `G`.
-/
import proofs.«148998_g4148938408473_cont_8to1_b_702_11_alg».proof.Defs
import proofs.«148998_g4148938408473_cont_8to1_b_702_11_alg».proof.Proof.RefReadP
import proofs.«148998_g4148938408473_cont_8to1_b_702_11_alg».proof.Proof.Spec
import proofs.«148998_g4148938408473_cont_8to1_b_702_11_alg».proof.Proof.LibPlainDot

noncomputable section

namespace Cert.ReferenceIdeal.RefValue

open Idealize.ShloMosaic Idealize.ShloMosaic.TcCoe Idealize.SL.Sem Idealize.ShloMosaic.ValueIdx
open Cert.ReferenceIdeal Cert.ReferenceIdeal.Gen
open Cert.ReferenceIdeal.ReadP
open Cert.DenseLayer (Mat prodRow PlainDot plainDot_of_axes)
open Cert.DenseRows (prodRowT prodRow_transposed)
open Cert.Sgc (hop logitsRow top logSoftmaxRow G)

/-! ## The contractions' dimension numbers -/

/-- Both propagation products sum the adjacency matrix's second axis against the features' first. -/
theorem hop_dims : PlainDot (a := 10000) (K := 10000) (N := 128)
    dot_S10000x10000_S10000x128_S10000x128_1_0_0_1_n_n :=
  plainDot_of_axes _ rfl rfl rfl rfl rfl rfl

/-- The classifier product sums the propagated features' second axis against the transposed classifier's first. -/
theorem cls_dims : PlainDot (a := 10000) (K := 128) (N := 128)
    dot_S10000x128_S128x128_S10000x128_1_0_0_1_n_n :=
  plainDot_of_axes _ rfl rfl rfl rfl rfl rfl

/-! ## The stages, entry by entry -/

section Stages

variable (x0 : FVec Ideal S10000x128 .f32) (x1 : FVec Ideal S10000x10000 .f32) (x2 : FVec Ideal S128x128 .f32)
  (x3 : FVec Ideal S128 .f32)

/-- The first product is one propagation step. -/
theorem hop1_eq : val_main_v0 (F := Ideal) x0 x1 = hop x1 x0 := by
  funext i
  unfold val_main_v0
  exact Cert.DenseLayer.dotGeneral_apply (φ₁ := .f32) (φ₂ := .f32) hop_dims none .single x1 x0 i

/-- The second product is the second propagation step. -/
theorem hop2_eq : val_main_v1 (F := Ideal) x0 x1 = hop x1 (hop x1 x0) := by
  funext i
  unfold val_main_v1
  rw [hop1_eq]
  exact Cert.DenseLayer.dotGeneral_apply (φ₁ := .f32) (φ₂ := .f32) hop_dims none .single x1 (hop x1 x0) i

/-- The transposed classifier at `(k, q)` is the classifier at `(q, k)`. -/
theorem transposed_apply (k q : Fin 128) : val_main_v2 (F := Ideal) x2 (ix2 k q) = x2 (ix2 q k) :=
  (val_main_v2_apply (F := Ideal) x2 (ix2 k q)).trans (congrArg x2 (funext fun a => Fin.ext (by
    match a with
    | ⟨0, _⟩ => rfl
    | ⟨1, _⟩ => rfl)))

/-- The plain product with the transposed classifier is the product with the classifier's rows. -/
theorem scores_apply (r : Fin 10000) (q : Fin 128) :
    val_main_v3 (F := Ideal) x0 x1 x2 (ix2 r q) = prodRowT (hop x1 (hop x1 x0)) x2 r q := by
  unfold val_main_v3
  rw [hop2_eq]
  exact (Cert.DenseLayer.dotGeneral_apply (φ₁ := .f32) (φ₂ := .f32) cls_dims none .single (hop x1 (hop x1 x0))
      (val_main_v2 (F := Ideal) x2) (ix2 r q)).trans
    (prodRow_transposed (hop x1 (hop x1 x0)) (val_main_v2 (F := Ideal) x2) x2 (fun k q => transposed_apply x2 k q) r q)

/-- The bias laid over the rows: at `(r, q)` it is the bias at `q`. -/
theorem bias_apply (r : Fin 10000) (q : Fin 128) : val_main_v5 (F := Ideal) x3 (ix2 r q) = x3 (ix1 q) :=
  (val_main_v5_apply (F := Ideal) x3 (ix2 r q)).trans ((val_main_v4_apply (F := Ideal) x3 _).trans (congrArg x3 (funext fun a => Fin.ext (by
    match a with
    | ⟨0, _⟩ => rfl))))

/-- The logits at `(r, q)`. -/
theorem logits_apply (r : Fin 10000) (q : Fin 128) :
    val_main_v6 (F := Ideal) x0 x1 x2 x3 (ix2 r q) = logitsRow x1 x0 x2 x3 r q := by
  rw [val_main_v6_apply, scores_apply, bias_apply]
  rfl

/-- The row maximum folded from `-∞`. -/
theorem rowMax_apply (r : Fin 10000) :
    val_main_call0_v0 (F := Ideal) x0 x1 x2 x3 (ix1 r) = top (logitsRow x1 x0 x2 x3 r) := by
  unfold val_main_call0_v0
  refine (Cert.DenseLayer.hostReduce_max_rows_apply (φ := .f32) (val_main_v6 (F := Ideal) x0 x1 x2 x3)
    (val_main_call0_cst (F := Ideal)) reducesTo_S10000x128_S10000_d1 (by decide) h_S_ r).trans ?_
  unfold top
  exact congrArg (fun f : Fin 128 → EReal => Finset.univ.fold max (Ideal.ofBits .f32 0xFF800000#32) f)
    (funext fun k => logits_apply x0 x1 x2 x3 r k)

/-- Taken once more against `-∞`, the row maximum is unchanged. -/
theorem rowTop_apply (r : Fin 10000) :
    val_main_call0_v2 (F := Ideal) x0 x1 x2 x3 (ix1 r) = top (logitsRow x1 x0 x2 x3 r) := by
  rw [val_main_call0_v2_apply, rowMax_apply, val_main_call0_v1_apply, val_main_call0_cst_0_apply]
  exact Cert.Sgc.max_start_top _

/-- The row maxima laid over the columns: at `(r, q)` the maximum of row `r`. -/
theorem topOver_apply (r : Fin 10000) (q : Fin 128) :
    val_main_call0_v4 (F := Ideal) x0 x1 x2 x3 (ix2 r q) = top (logitsRow x1 x0 x2 x3 r) := by
  have e : idx_main_call0_v3 (idx_main_call0_v4 (ix2 r q)) = ix1 r := funext fun a => Fin.ext (by
    match a with
    | ⟨0, _⟩ => rfl)
  rw [val_main_call0_v4_apply, val_main_call0_v3_apply, e, rowTop_apply]

/-- The logits minus their row's maximum. -/
theorem shifted_apply (r : Fin 10000) (q : Fin 128) :
    val_main_call0_v5 (F := Ideal) x0 x1 x2 x3 (ix2 r q)
      = logitsRow x1 x0 x2 x3 r q - top (logitsRow x1 x0 x2 x3 r) := by
  rw [val_main_call0_v5_apply, logits_apply, topOver_apply]
  rfl

/-- The exponentials of the shifted logits. -/
theorem expShifted_apply (r : Fin 10000) (q : Fin 128) :
    val_main_call0_v6 (F := Ideal) x0 x1 x2 x3 (ix2 r q)
      = Ideal.exp (logitsRow x1 x0 x2 x3 r q - top (logitsRow x1 x0 x2 x3 r)) := by
  rw [val_main_call0_v6_apply, shifted_apply]
  rfl

/-- Their sum along the row, started from the constant `0`. -/
theorem rowSum_apply (r : Fin 10000) :
    val_main_call0_v7 (F := Ideal) x0 x1 x2 x3 (ix1 r)
      = ∑ k : Fin 128, Ideal.exp (logitsRow x1 x0 x2 x3 r k - top (logitsRow x1 x0 x2 x3 r)) := by
  rw [val_main_call0_v7_apply, val_main_call0_cst_1_apply]
  show Ideal.ofBits .f32 0x00000000#32 + _ = _
  rw [Ideal.ofBits_zero_f32, zero_add]
  refine Finset.sum_congr rfl fun k _ => ?_
  exact (congrArg (val_main_call0_v6 (F := Ideal) x0 x1 x2 x3) (funext fun a => Fin.ext (by
    match a with
    | ⟨0, _⟩ => rfl
    | ⟨1, _⟩ => rfl))).trans (expShifted_apply x0 x1 x2 x3 r k)

/-- The logarithm of the row sums laid over the columns. -/
theorem logSumOver_apply (r : Fin 10000) (q : Fin 128) :
    val_main_call0_v10 (F := Ideal) x0 x1 x2 x3 (ix2 r q)
      = Ideal.log (∑ k : Fin 128, Ideal.exp (logitsRow x1 x0 x2 x3 r k - top (logitsRow x1 x0 x2 x3 r))) := by
  have e : idx_main_call0_v8 (idx_main_call0_v10 (ix2 r q)) = ix1 r := funext fun a => Fin.ext (by
    match a with
    | ⟨0, _⟩ => rfl)
  rw [val_main_call0_v10_apply, val_main_call0_v9_apply, val_main_call0_v8_apply, e, rowSum_apply]
  exact Ideal.hostUnary_log_def _

/-- The reference's last stage is the specification. -/
theorem result_eq_G : val_main_v7 (F := Ideal) x0 x1 x2 x3 = G x1 x0 x2 x3 := by
  funext i
  obtain ⟨r, q, rfl⟩ : ∃ (r : Fin 10000) (q : Fin 128), i = ix2 r q := ⟨i 0, i 1, eq_ix2 i⟩
  rw [val_main_v7_apply, shifted_apply, logSumOver_apply, Cert.Sgc.G_apply]
  rfl

end Stages

/-- The reference's run with its result named: the log-softmax of the rows of `A·(A·x)·Wᵀ + b`. -/
theorem run_G [Cert.ReferenceIdeal.Facts] (m' : (ℓ : Loc nD τ sig) → Buf (Elt Ideal) ℓ) (ρ' : Dev nD → PrngReg) :
    θ_run (Cert.ReferenceIdeal.defs (F := Ideal)) (onTc (τ := τ) (Cert.ReferenceIdeal.main (F := Ideal))) ⟨m', fun _ => 0, ρ'⟩
      (fun r => ∀ c : Dev nD,
        r.2.mem ((c.tc : Thread nD τ).loc main_v7)
            = Cert.Sgc.G (m' ((c.tc : Thread nD τ).loc main_arg1)) (m' ((c.tc : Thread nD τ).loc main_arg0))
                (m' ((c.tc : Thread nD τ).loc main_arg2)) (m' ((c.tc : Thread nD τ).loc main_arg3))
        ∧ r.2.mem ((c.tc : Thread nD τ).loc main_arg0) = m' ((c.tc : Thread nD τ).loc main_arg0)
        ∧ r.2.mem ((c.tc : Thread nD τ).loc main_arg1) = m' ((c.tc : Thread nD τ).loc main_arg1)
        ∧ r.2.mem ((c.tc : Thread nD τ).loc main_arg2) = m' ((c.tc : Thread nD τ).loc main_arg2)
        ∧ r.2.mem ((c.tc : Thread nD τ).loc main_arg3) = m' ((c.tc : Thread nD τ).loc main_arg3)) :=
  (θ_run (Cert.ReferenceIdeal.defs (F := Ideal)) _ _).mono
    (fun _ h c => ⟨(h c).1.trans ((val_main_v7_eq (F := Ideal) _ _ _ _).trans (result_eq_G _ _ _ _)), (h c).2⟩)
    (Cert.ReferenceIdeal.ValueP.run (F := Ideal) m' ρ')

end Cert.ReferenceIdeal.RefValue

end
-- ==== Proof.lean ====
/-
  The certificate of the two-hop graph classifier `log_softmax((A · (A · x)) · Wᵀ + b)`.

  The kernel is one region on a grid of 2 × 25 points. In its first 25 points it fills a scratch buffer with the first
  hop `A · x`, 400 rows a point, from two windows of 200 rows each on the one adjacency matrix; in its last 25 points it
  multiplies 400 rows of `A` by that scratch, applies the classifier and the bias, and writes the rows' log-softmax to
  the output. Both printed programs of the kernel run to the end, fault nowhere and leave the arguments as they were:
  the region's launch, the adjacency matrix's buffer shared half and half between the two windows that read it, with an
  invariant that says which rows of the first hop the scratch already holds. The ideal pass rewrote nothing, so the
  idealized kernel is the kernel's own text. At the ideal values every row of the scratch is the row of `A · x`, every
  block written back is 400 rows of the specification `Cert.Sgc.G`, and the 25 blocks tile the output; the reference
  computes the same function operation by operation — its transposed classifier against the kernel's contraction of the
  second axes, its extra maximum against `-∞` absorbed — and no law used needs the inputs finite.
-/
import proofs.«148998_g4148938408473_cont_8to1_b_702_11_alg».proof.Defs
import proofs.«148998_g4148938408473_cont_8to1_b_702_11_alg».proof.Proof.Gen.Kernel
import proofs.«148998_g4148938408473_cont_8to1_b_702_11_alg».proof.Proof.Gen.KernelIdeal
import proofs.«148998_g4148938408473_cont_8to1_b_702_11_alg».proof.Proof.Gen.ReferenceIdeal
import proofs.«148998_g4148938408473_cont_8to1_b_702_11_alg».proof.Proof.Gen.Pre_finite_inputs
import proofs.«148998_g4148938408473_cont_8to1_b_702_11_alg».proof.Proof.K_Launch
import proofs.«148998_g4148938408473_cont_8to1_b_702_11_alg».proof.Proof.KI_ValueRun
import proofs.«148998_g4148938408473_cont_8to1_b_702_11_alg».proof.Proof.RefValue
import Idealize.ShloMosaic.Adequacy
import Idealize.ShloMosaic.Init

noncomputable section

namespace Cert.Proof

open Idealize.ShloMosaic Idealize.SL.Sem

/-- The word-level kernel runs and leaves its arguments unchanged. -/
theorem frame_k : Cert.frame_Kernel := fun m ρ _ => Cert.Kernel.Hand.frame (F := Bits) m ρ

/-- So does the idealized kernel. -/
theorem frame_ki : Cert.frame_KernelIdeal := fun m ρ _ => Cert.KernelIdeal.Hand.frame (F := Ideal) m ρ

/-- The reference runs and leaves its arguments unchanged: its run with the result dropped. -/
theorem frame_ri : Cert.frame_ReferenceIdeal := fun m ρ _ =>
  (θ_run Cert.ReferenceIdeal.defs _ _).mono (fun _ h c => (h c).2) (Cert.ReferenceIdeal.RefValue.run_G m ρ)

/-- From memories that agree on the arguments both idealized programs end with the specification's value of those
    arguments in their result arrays. -/
theorem algebraic : Cert.algebraic_KernelIdeal_ReferenceIdeal := by
  intro m ρ m' ρ' _ hagree
  refine ⟨fun c => Cert.Sgc.G (m ((c.tc : Thread Cert.KernelIdeal.nD Cert.KernelIdeal.τ).loc Cert.KernelIdeal.main_arg1))
      (m ((c.tc : Thread Cert.KernelIdeal.nD Cert.KernelIdeal.τ).loc Cert.KernelIdeal.main_arg0))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3)),
    Cert.KernelIdeal.HandValue.run_value m ρ, ?_⟩
  refine (θ_run Cert.ReferenceIdeal.defs _ _).mono (fun _ h c => ⟨(h c).1.trans ?_, (h c).2⟩)
    (Cert.ReferenceIdeal.RefValue.run_G m' ρ')
  rw [(hagree c).1, (hagree c).2.1, (hagree c).2.2.1, (hagree c).2.2.2]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
